-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.truncf_extf.Statement Cert.KernelIdeal.S1024x2048 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x128 : Shape := ⟨2, ![1000000, 128]⟩
abbrev S2x1024 : Shape := ⟨2, ![2, 1024]⟩
abbrev S1024x8 : Shape := ⟨2, ![1024, 8]⟩
abbrev S1024x128 : Shape := ⟨2, ![1024, 128]⟩
abbrev S1000000 : Shape := ⟨1, ![1000000]⟩
abbrev S256x512 : Shape := ⟨2, ![256, 512]⟩
abbrev S512 : Shape := ⟨1, ![512]⟩
abbrev S512x128 : Shape := ⟨2, ![512, 128]⟩
abbrev S128 : Shape := ⟨1, ![128]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S1024x8 : S_.BroadcastsInDim S1024x8 (![] : Fin 0 → Fin S1024x8.rank)
  reducesTo_S1024x8_S_d0_1 : S1024x8.ReducesTo [0, 1] S_
  bcast_S_S1024x128 : S_.BroadcastsInDim S1024x128 (![] : Fin 0 → Fin S1024x128.rank)
  reducesTo_S1024x128_S_d0_1 : S1024x128.ReducesTo [0, 1] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S512 .f32) (main_arg7 : FVec F S512x128 .f32) (main_arg8 : FVec F S128 .f32) (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  let main_v19 : FVec F S512 .f32 := Host.absf main_arg6
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x128 .f32 := Host.absf main_arg7
  let main_cst_8 : FVec F S_ .f32 := constant S_ .f32 0x7F800000#32
  let main_v25 : FVec F S512x128 .f32 := broadcastInDim S512x128 ![] bcast_S_S512x128 main_cst_8
  let main_v26 : IVec S512x128 1 := cmpf .olt main_v24 main_v25
  let main_c_9 : IVec S_ 1 := constantI S_ 1 1#1
  let main_v27 : IVec S_ 1 := (fun x v => Host.reduce IntOp.andi x v reducesTo_S512x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S1000000x128 .f32) (main_arg1 : IVec S2x1024 32) (main_arg2 : FVec F S1024x8 .f32) (main_arg3 : FVec F S1024x128 .f32) (main_arg4 : IVec S1000000 32) (main_arg5 : FVec F S256x512 .f32) (main_arg6 : FVec F S512 .f32) (main_arg7 : FVec F S512x128 .f32) (main_arg8 : FVec F S128 .f32) : IVec S_ 1 :=
  let main_v0 : FVec F S1000000x128 .f32 := Host.absf main_arg0
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_v4 : FVec F S1024x8 .f32 := Host.absf main_arg2
  let main_cst_0 : FVec F S_ .f32 := constant S_ .f32 0x7F800000#32
  let main_v5 : FVec F S1024x8 .f32 := broadcastInDim S1024x8 ![] bcast_S_S1024x8 main_cst_0
  let main_v6 : IVec S1024x8 1 := cmpf .olt main_v4 main_v5
  let main_c_1 : IVec S_ 1 := constantI S_ 1 1#1
  let main_v7 : IVec S_ 1 := (fun x v => Host.reduce IntOp.andi x v reducesTo_S1024x8_S_d0_1 h_S_) main_v6 main_c_1
  let main_v8 : IVec S_ 1 := andi main_v3 main_v7
  let main_v9 : FVec F S1024x128 .f32 := Host.absf main_arg3
  let main_cst_2 : FVec F S_ .f32 := constant S_ .f32 0x7F800000#32
  let main_v10 : FVec F S1024x128 .f32 := broadcastInDim S1024x128 ![] bcast_S_S1024x128 main_cst_2
  let main_v11 : IVec S1024x128 1 := cmpf .olt main_v9 main_v10
  let main_c_3 : IVec S_ 1 := constantI S_ 1 1#1
  let main_v12 : IVec S_ 1 := (fun x v => Host.reduce IntOp.andi x v reducesTo_S1024x128_S_d0_1 h_S_) main_v11 main_c_3
  let main_v13 : IVec S_ 1 := andi main_v8 main_v12
  let main_v14 : FVec F S256x512 .f32 := Host.absf main_arg5
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_arg6 main_arg7 main_arg8 main_v13 main_v16
-- ==== Kernel.lean ====
abbrev S1000000x128 : Shape := ⟨2, ![1000000, 128]⟩
abbrev S2x1024 : Shape := ⟨2, ![2, 1024]⟩
abbrev S1024x8 : Shape := ⟨2, ![1024, 8]⟩
abbrev S1024x128 : Shape := ⟨2, ![1024, 128]⟩
abbrev S1000000 : Shape := ⟨1, ![1000000]⟩
abbrev S256x512 : Shape := ⟨2, ![256, 512]⟩
abbrev S512 : Shape := ⟨1, ![512]⟩
abbrev S512x128 : Shape := ⟨2, ![512, 128]⟩
abbrev S128 : Shape := ⟨1, ![128]⟩
abbrev S_ : Shape := ⟨0, ![]⟩
abbrev S1001472x128 : Shape := ⟨2, ![1001472, 128]⟩
abbrev S1001472 : Shape := ⟨1, ![1001472]⟩
abbrev S1x1001472 : Shape := ⟨2, ![1, 1001472]⟩
abbrev S1x512 : Shape := ⟨2, ![1, 512]⟩
abbrev S1x128 : Shape := ⟨2, ![1, 128]⟩
abbrev S2048x128 : Shape := ⟨2, ![2048, 128]⟩
abbrev S1x2048 : Shape := ⟨2, ![1, 2048]⟩
abbrev S1024x1 : Shape := ⟨2, ![1024, 1]⟩
abbrev S1024x2048 : Shape := ⟨2, ![1024, 2048]⟩
abbrev S1024 : Shape := ⟨1, ![1024]⟩
abbrev S1024x256 : Shape := ⟨2, ![1024, 256]⟩
abbrev S1024x512 : Shape := ⟨2, ![1024, 512]⟩

abbrev nBuf : Space → Nat
  | .hbm => 19
  | .vmem => 12
  | .smem => 0
  | _ => 0

abbrev bufTy : (tb : Table) → Fin (tcTables nBuf tb) → BufTy
  | .hbm, ⟨0, _⟩ => ⟨S1000000x128, .f32⟩
  | .hbm, ⟨1, _⟩ => ⟨S2x1024, .i32⟩
  | .hbm, ⟨2, _⟩ => ⟨S1024x8, .f32⟩
  | .hbm, ⟨3, _⟩ => ⟨S1024x128, .f32⟩
  | .hbm, ⟨4, _⟩ => ⟨S1000000, .i32⟩
  | .hbm, ⟨5, _⟩ => ⟨S256x512, .f32⟩
  | .hbm, ⟨6, _⟩ => ⟨S512, .f32⟩
  | .hbm, ⟨7, _⟩ => ⟨S512x128, .f32⟩
  | .hbm, ⟨8, _⟩ => ⟨S128, .f32⟩
  | .hbm, ⟨9, _⟩ => ⟨S_, .i32⟩
  | .hbm, ⟨10, _⟩ => ⟨S_, .f32⟩
  | .hbm, ⟨11, _⟩ => ⟨S1001472x128, .f32⟩
  | .hbm, ⟨12, _⟩ => ⟨S_, .i32⟩
  | .hbm, ⟨13, _⟩ => ⟨S_, .i32⟩
  | .hbm, ⟨14, _⟩ => ⟨S1001472, .i32⟩
  | .hbm, ⟨15, _⟩ => ⟨S1x1001472, .i32⟩
  | .hbm, ⟨16, _⟩ => ⟨S1x512, .f32⟩
  | .hbm, ⟨17, _⟩ => ⟨S1x128, .f32⟩
  | .hbm, ⟨18, _⟩ => ⟨S1024x128, .f32⟩
  | .local _ .vmem, ⟨0, _⟩ => ⟨S2048x128, .f32⟩
  | .local _ .vmem, ⟨1, _⟩ => ⟨S2048x128, .f32⟩
  | .local _ .vmem, ⟨2, _⟩ => ⟨S1x2048, .i32⟩
  | .local _ .vmem, ⟨3, _⟩ => ⟨S1x2048, .i32⟩
  | .local _ .vmem, ⟨4, _⟩ => ⟨S1024x128, .f32⟩
  | .local _ .vmem, ⟨5, _⟩ => ⟨S256x512, .f32⟩
  | .local _ .vmem, ⟨6, _⟩ => ⟨S1x512, .f32⟩
  | .local _ .vmem, ⟨7, _⟩ => ⟨S512x128, .f32⟩
  | .local _ .vmem, ⟨8, _⟩ => ⟨S1x128, .f32⟩
  | .local _ .vmem, ⟨9, _⟩ => ⟨S1024x128, .f32⟩
  | .local _ .vmem, ⟨10, _⟩ => ⟨S1024x128, .f32⟩
  | .local _ .vmem, ⟨11, _⟩ => ⟨S1024x1, .f32⟩
  | _, _ => ⟨S1000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_c_0 : Ref sig .tc := ⟨.hbm, 12, rfl⟩
abbrev main_call1_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9

abbrev nD : Nat := 1
abbrev τ : Topo := Topo.v7x

variable {F : FTy → Type} [FloatOps F]

abbrev grid0 : Pipeline.Grid := ⟨1, ![489], ![false]⟩

def k0_cond2 (i : grid0.Coords) : BitVec 1 :=
  let arg0 : BitVec 32 := BitVec.ofNat 32 (i 0).val
  let c488_i32 : BitVec 32 := 488#32
  let v28 : BitVec 1 := Scalar.cmpi .eq arg0 c488_i32
  let v29 : BitVec 32 := Scalar.extui v28
  let c0_i32_13 : BitVec 32 := 0#32
  let v30 : BitVec 1 := Scalar.cmpi .ne v29 c0_i32_13
  v30

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

class Facts₀ : Prop where
  pads_S1000000x128_S1001472x128_014720_000 : S1000000x128.Pads (![0, 0] : Fin 2 → Nat) ![1472, 0] ![0, 0] S1001472x128
  h_S_ : 0 < S_.numel
  pads_S1000000_S1001472_014720 : S1000000.Pads (![0] : Fin 1 → Nat) ![1472] ![0] S1001472
  shapeCasts_S1001472_S1x1001472 : S1001472.ShapeCasts S1x1001472
  shapeCasts_S512_S1x512 : S512.ShapeCasts S1x512
  shapeCasts_S128_S1x128 : S128.ShapeCasts S1x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  bitsLt_bf16_f32 : FTy.bits .bf16 < FTy.bits .f32
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  iota_S1024x2048_d0_w32 : S1024x2048.Iotas .tc 32 [0]
  broadcasts_S1x2048_S1024x2048 : S1x2048.Broadcasts S1024x2048
  natLt_1_32 : 1 < 32
  reduces_S1024x2048_S1024 : S1024x2048.Reduces [1] S1024
  shapeCasts_S1024_S1024x1 : S1024.ShapeCasts S1024x1
  broadcasts_S1024x1_S1024x128 : S1024x1.Broadcasts S1024x128
  concatenates_S1024x128_S1024x128_S1024x256_d1 : Shape.Concatenates [S1024x128, S1024x128] S1024x256 1
  inb_S256x512_S256x512_0_0 : ∀ a, (![0, 0] : Fin 2 → Nat) a + S256x512.size a ≤ S256x512.size a
  h_S256x512 : 0 < S256x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S512x128_S512x128_0_0 : ∀ a, (![0, 0] : Fin 2 → Nat) a + S512x128.size a ≤ S512x128.size a
  h_S512x128 : 0 < S512x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  dot_S1024x2048_S2048x128_S1024x128_1_0_0_1_n_n_wf : DotDims.WF S1024x2048 S2048x128 S1024x128 [1] [0] [0] [1] [] []
  dot_S1024x256_S256x512_S1024x512_1_0_0_1_n_n_wf : DotDims.WF S1024x256 S256x512 S1024x512 [1] [0] [0] [1] [] []
  dot_S1024x512_S512x128_S1024x128_1_0_0_1_n_n_wf : DotDims.WF S1024x512 S512x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S1001472x128.size a
  hwx0_0 : ∀ i : grid0.Coords, EltTy.bits .f32 = 32 ∨ (Rect.block (s := S1001472x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x1001472.size a
  hwx0_1 : ∀ i : grid0.Coords, EltTy.bits .i32 = 32 ∨ (Rect.block (s := S1x1001472) S1x2048.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S1024x128.size a
  hwx0_2 : ∀ i : grid0.Coords, EltTy.bits .f32 = 32 ∨ (Rect.block (s := S1024x128) S1024x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .f32 = 32 ∨ (Rect.block (s := S256x512) S256x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x128.size a ≤ S512x128.size a
  hwx0_5 : ∀ i : grid0.Coords, EltTy.bits .f32 = 32 ∨ (Rect.block (s := S512x128) S512x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x128.size a ≤ S1024x128.size a
  hwx0_7 : ∀ i : grid0.Coords, EltTy.bits .f32 = 32 ∨ (Rect.block (s := S1024x128) S1024x128.size (cc0_transform_7 i) (hinb0_7 i)).WholeWords (EltTy.packing .f32)

variable [Facts₀]

def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf

abbrev win0_0 : Pipeline.Window sig grid0 :=
  Pipeline.Window.ofSpec (Memref.whole main_v0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S512x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1024x128.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S1000000x128 : Shape := ⟨2, ![1000000, 128]⟩
abbrev S2x1024 : Shape := ⟨2, ![2, 1024]⟩
abbrev S1024x8 : Shape := ⟨2, ![1024, 8]⟩
abbrev S1024x128 : Shape := ⟨2, ![1024, 128]⟩
abbrev S1000000 : Shape := ⟨1, ![1000000]⟩
abbrev S256x512 : Shape := ⟨2, ![256, 512]⟩
abbrev S512 : Shape := ⟨1, ![512]⟩
abbrev S512x128 : Shape := ⟨2, ![512, 128]⟩
abbrev S128 : Shape := ⟨1, ![128]⟩
abbrev S_ : Shape := ⟨0, ![]⟩
abbrev S1000000x1 : Shape := ⟨2, ![1000000, 1]⟩
abbrev S1024 : Shape := ⟨1, ![1024]⟩
abbrev S1024x1 : Shape := ⟨2, ![1024, 1]⟩
abbrev S1024x256 : Shape := ⟨2, ![1024, 256]⟩
abbrev S1024x512 : Shape := ⟨2, ![1024, 512]⟩
abbrev S1x512 : Shape := ⟨2, ![1, 512]⟩
abbrev S1x128 : Shape := ⟨2, ![1, 128]⟩

abbrev nBuf : Space → Nat
  | .hbm => 37
  | .vmem => 0
  | .smem => 0
  | _ => 0

abbrev bufTy : (tb : Table) → Fin (tcTables nBuf tb) → BufTy
  | .hbm, ⟨0, _⟩ => ⟨S1000000x128, .f32⟩
  | .hbm, ⟨1, _⟩ => ⟨S2x1024, .i32⟩
  | .hbm, ⟨2, _⟩ => ⟨S1024x8, .f32⟩
  | .hbm, ⟨3, _⟩ => ⟨S1024x128, .f32⟩
  | .hbm, ⟨4, _⟩ => ⟨S1000000, .i32⟩
  | .hbm, ⟨5, _⟩ => ⟨S256x512, .f32⟩
  | .hbm, ⟨6, _⟩ => ⟨S512, .f32⟩
  | .hbm, ⟨7, _⟩ => ⟨S512x128, .f32⟩
  | .hbm, ⟨8, _⟩ => ⟨S128, .f32⟩
  | .hbm, ⟨9, _⟩ => ⟨S_, .f32⟩
  | .hbm, ⟨10, _⟩ => ⟨S1024x128, .f32⟩
  | .hbm, ⟨11, _⟩ => ⟨S1000000x1, .i32⟩
  | .hbm, ⟨12, _⟩ => ⟨S1024x128, .f32⟩
  | .hbm, ⟨13, _⟩ => ⟨S_, .f32⟩
  | .hbm, ⟨14, _⟩ => ⟨S1000000, .f32⟩
  | .hbm, ⟨15, _⟩ => ⟨S_, .f32⟩
  | .hbm, ⟨16, _⟩ => ⟨S1024, .f32⟩
  | .hbm, ⟨17, _⟩ => ⟨S1000000x1, .i32⟩
  | .hbm, ⟨18, _⟩ => ⟨S1024, .f32⟩
  | .hbm, ⟨19, _⟩ => ⟨S_, .f32⟩
  | .hbm, ⟨20, _⟩ => ⟨S1024, .f32⟩
  | .hbm, ⟨21, _⟩ => ⟨S1024, .f32⟩
  | .hbm, ⟨22, _⟩ => ⟨S1024x1, .f32⟩
  | .hbm, ⟨23, _⟩ => ⟨S1024x128, .f32⟩
  | .hbm, ⟨24, _⟩ => ⟨S1024x128, .f32⟩
  | .hbm, ⟨25, _⟩ => ⟨S1024x256, .f32⟩
  | .hbm, ⟨26, _⟩ => ⟨S1024x512, .f32⟩
  | .hbm, ⟨27, _⟩ => ⟨S1x512, .f32⟩
  | .hbm, ⟨28, _⟩ => ⟨S1024x512, .f32⟩
  | .hbm, ⟨29, _⟩ => ⟨S1024x512, .f32⟩
  | .hbm, ⟨30, _⟩ => ⟨S_, .f32⟩
  | .hbm, ⟨31, _⟩ => ⟨S1024x512, .f32⟩
  | .hbm, ⟨32, _⟩ => ⟨S1024x512, .f32⟩
  | .hbm, ⟨33, _⟩ => ⟨S1024x128, .f32⟩
  | .hbm, ⟨34, _⟩ => ⟨S1x128, .f32⟩
  | .hbm, ⟨35, _⟩ => ⟨S1024x128, .f32⟩
  | .hbm, ⟨36, _⟩ => ⟨S1024x128, .f32⟩
  | _, _ => ⟨S1000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_call0_cst : Ref sig .tc := ⟨.hbm, 30, rfl⟩
abbrev main_call0_v0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩

abbrev nD : Nat := 1
abbrev τ : Topo := Topo.v7x

variable {F : FTy → Type} [FloatOps F]

class Facts₀ : Prop where
  bcast_S_S1024x128 : S_.BroadcastsInDim S1024x128 (![] : Fin 0 → Fin S1024x128.rank)
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x128_0_1 : S1024x1.BroadcastsInDim S1024x128 (![0, 1] : Fin 2 → Fin S1024x128.rank)
  concatenates_S1024x128_S1024x128_S1024x256_d1 : Shape.Concatenates [S1024x128, S1024x128] S1024x256 1
  bcast_S512_S1x512_1 : S512.BroadcastsInDim S1x512 (![1] : Fin 1 → Fin S1x512.rank)
  bcast_S1x512_S1024x512_0_1 : S1x512.BroadcastsInDim S1024x512 (![0, 1] : Fin 2 → Fin S1024x512.rank)
  bcast_S_S1024x512 : S_.BroadcastsInDim S1024x512 (![] : Fin 0 → Fin S1024x512.rank)
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  scatter_S1024x128_S1000000x1_S1000000x128_1_0_0_1_wf : ScatterDims.WF S1024x128 S1000000x1 S1000000x128 [1] [0] [0] 1
  scatter_S1024_S1000000x1_S1000000_n_0_0_1_wf : ScatterDims.WF S1024 S1000000x1 S1000000 [] [0] [0] 1
  dot_S1024x256_S256x512_S1024x512_1_0_0_1_n_n_wf : DotDims.WF S1024x256 S256x512 S1024x512 [1] [0] [0] [1] [] []
  dot_S1024x512_S512x128_S1024x128_1_0_0_1_n_n_wf : DotDims.WF S1024x512 S512x128 S1024x128 [1] [0] [0] [1] [] []

variable [Facts₀]

def scatter_S1024x128_S1000000x1_S1000000x128_1_0_0_1 : ScatterDims S1024x128 S1000000x1 S1000000x128 where
  updateWindowDims := [1]
  insertedWindowDims := [0]
  scatterDimsToOperandDims := [0]
  indexVectorDim := 1
  wf := scatter_S1024x128_S1000000x1_S1000000x128_1_0_0_1_wf
def scatter_S1024_S1000000x1_S1000000_n_0_0_1 : ScatterDims S1024 S1000000x1 S1000000 where
  updateWindowDims := []
  insertedWindowDims := [0]
  scatterDimsToOperandDims := [0]
  indexVectorDim := 1
  wf := scatter_S1024_S1000000x1_S1000000_n_0_0_1_wf
def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf

class Facts : Prop extends Facts₀ where

variable [Facts]
-- ==== Proof.CaseValues.lean ====
/-
  What one grid point leaves behind, case by case, as the body's stored values.

  The body keeps two running totals between grid points: a [1024, 128] array of feature sums and a [1024, 1]
  column of row counts. Writing S(x, s, a) for "a plus the product of the one-hot matrix of the segment words s with
  the row block x" and C(s, a) for "a plus the row sums of that one-hot matrix":
  * at the first point the totals are reset to zero and then updated: they end at S(x, s, 0) and C(s, 0);
  * at a middle point they end at S(x, s, a₀) and C(s, a₁) over what the point before left (a₀, a₁);
  * at the last point the same update happens and the output block is then computed from the updated totals:
    the mean, the joined row and the two layers, T(S(x, s, a₀), C(s, a₁), u, W1, b1, W2, b2).
  Each statement identifies what the stores of one run leave in a buffer with one of those terms.
-/
import proofs.«400438_j2714419331676_1_alg».proof.Proof.Gen.KernelIdeal.Frame
import Idealize.ShloMosaic.Lib.Pipeline.Value
import Idealize.ShloMosaic.Lib.Tactic

set_option maxRecDepth 16384

noncomputable section

namespace Cert.SegMeanMlp.Cases

open Cert.KernelIdeal Cert.KernelIdeal.Gen
open Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- The first point resets the feature sums to the zero array and updates that. -/
theorem sums_A (c : Dev nD) (i : grid0.Coords) (arg1 : Memref sig .tc .vmem S2048x128 .f32) (harg1 : arg1.IsWhole) (arg2 : Memref sig .tc .vmem S1x2048 .i32) (harg2 : arg2.IsWhole) (arg3 : Memref sig .tc .vmem S1024x128 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S512x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x1 .f32) (harg10 : arg10.IsWhole) (hc0 : cond0_0 i) (hc1 : ¬cond0_1 i)
    (x0 : Vec F S2048x128 .f32) (x1 : Vec F S1x2048 .i32) (x2 : Vec F S1024x128 .f32) (x3 : Vec F S256x512 .f32) (x4 : Vec F S1x512 .f32) (x5 : Vec F S512x128 .f32) (x6 : Vec F S1x128 .f32) :
    sout0_A_0 c i arg1 harg1 arg2 harg2 arg3 harg3 arg4 harg4 arg5 harg5 arg6 harg6 arg7 harg7 arg8 harg8 arg9 harg9 arg10 harg10 hc0 hc1 x0 x1 x2 x3 x4 x5 x6 = k0_pay4 x0 x1 k0_pay1 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 hc0 hc1 x0 x1 x2 x3 x4 x5 x6)]
  unfold kernelRun0_A
  dsimp only
  sl_unfold_words
  rw [View.canon_cons_unit_zero (S := S1024x128) hz]
  simp only [View.readAt_eq_ld, harg1.read_unread, harg2.read_unread, harg3.read_unread, harg4.read_unread, harg5.read_unread, harg6.read_unread, harg7.read_unread, harg8.read_unread, harg9.read_unread, harg10.read_unread, View.ld_unit_zero (S := S1024x128) hz, View.ld_unit_zero (S := S2048x128) hz, View.ld_unit_zero (S := S1x2048) hz, View.ld_unit_zero (S := S1024x1) hz, View.ld_unit_zero (S := S256x512) hz, View.ld_unit_zero (S := S1x512) hz, View.ld_unit_zero (S := S512x128) hz, View.ld_unit_zero (S := S1x128) hz, View.readCov_unit_zero (S := S1024x128) _ hz, View.readCov_unit_zero (S := S1024x1) _ hz]

/-- The first point resets the row counts to the zero column and updates that. -/
theorem cnts_A (c : Dev nD) (i : grid0.Coords) (arg1 : Memref sig .tc .vmem S2048x128 .f32) (harg1 : arg1.IsWhole) (arg2 : Memref sig .tc .vmem S1x2048 .i32) (harg2 : arg2.IsWhole) (arg3 : Memref sig .tc .vmem S1024x128 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S512x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x1 .f32) (harg10 : arg10.IsWhole) (hc0 : cond0_0 i) (hc1 : ¬cond0_1 i)
    (x0 : Vec F S2048x128 .f32) (x1 : Vec F S1x2048 .i32) (x2 : Vec F S1024x128 .f32) (x3 : Vec F S256x512 .f32) (x4 : Vec F S1x512 .f32) (x5 : Vec F S512x128 .f32) (x6 : Vec F S1x128 .f32) :
    sout0_A_1 c i arg1 harg1 arg2 harg2 arg3 harg3 arg4 harg4 arg5 harg5 arg6 harg6 arg7 harg7 arg8 harg8 arg9 harg9 arg10 harg10 hc0 hc1 x0 x1 x2 x3 x4 x5 x6 = k0_pay5 x1 k0_pay2 := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 hc0 hc1 x0 x1 x2 x3 x4 x5 x6)]
  unfold kernelRun0_A
  dsimp only
  sl_unfold_words
  rw [View.canon_cons_unit_zero (S := S1024x1) hz]
  simp only [View.readAt_eq_ld, harg1.read_unread, harg2.read_unread, harg3.read_unread, harg4.read_unread, harg5.read_unread, harg6.read_unread, harg7.read_unread, harg8.read_unread, harg9.read_unread, harg10.read_unread, View.ld_unit_zero (S := S1024x128) hz, View.ld_unit_zero (S := S2048x128) hz, View.ld_unit_zero (S := S1x2048) hz, View.ld_unit_zero (S := S1024x1) hz, View.ld_unit_zero (S := S256x512) hz, View.ld_unit_zero (S := S1x512) hz, View.ld_unit_zero (S := S512x128) hz, View.ld_unit_zero (S := S1x128) hz, View.readCov_unit_zero (S := S1024x128) _ hz, View.readCov_unit_zero (S := S1024x1) _ hz]

/-- A middle point leaves the feature sums at the update of what the point before left. -/
theorem sums_B (c : Dev nD) (i : grid0.Coords) (arg1 : Memref sig .tc .vmem S2048x128 .f32) (harg1 : arg1.IsWhole) (arg2 : Memref sig .tc .vmem S1x2048 .i32) (harg2 : arg2.IsWhole) (arg3 : Memref sig .tc .vmem S1024x128 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S512x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x1 .f32) (harg10 : arg10.IsWhole) (hc0 : ¬cond0_0 i) (hc1 : ¬cond0_1 i)
    (x0 : Vec F S2048x128 .f32) (x1 : Vec F S1x2048 .i32) (x2 : Vec F S1024x128 .f32) (x3 : Vec F S256x512 .f32) (x4 : Vec F S1x512 .f32) (x5 : Vec F S512x128 .f32) (x6 : Vec F S1x128 .f32) (xs0 : Vec F S1024x128 .f32) (xs1 : Vec F S1024x1 .f32) :
    sout0_B_0 c i arg1 harg1 arg2 harg2 arg3 harg3 arg4 harg4 arg5 harg5 arg6 harg6 arg7 harg7 arg8 harg8 arg9 harg9 arg10 harg10 hc0 hc1 x0 x1 x2 x3 x4 x5 x6 xs0 xs1 = k0_pay4 x0 x1 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 hc0 hc1 x0 x1 x2 x3 x4 x5 x6 xs0 xs1)]
  unfold kernelRun0_B
  dsimp only
  sl_unfold_words
  rw [View.canon_unit_zero (S := S1024x128) hz]
  simp only [View.readAt_eq_ld, harg1.read_unread, harg2.read_unread, harg3.read_unread, harg4.read_unread, harg5.read_unread, harg6.read_unread, harg7.read_unread, harg8.read_unread, harg9.read_unread, harg10.read_unread, View.ld_unit_zero (S := S1024x128) hz, View.ld_unit_zero (S := S2048x128) hz, View.ld_unit_zero (S := S1x2048) hz, View.ld_unit_zero (S := S1024x1) hz, View.ld_unit_zero (S := S256x512) hz, View.ld_unit_zero (S := S1x512) hz, View.ld_unit_zero (S := S512x128) hz, View.ld_unit_zero (S := S1x128) hz, View.readCov_unit_zero (S := S1024x128) _ hz, View.readCov_unit_zero (S := S1024x1) _ hz]

/-- A middle point leaves the row counts at the update of what the point before left. -/
theorem cnts_B (c : Dev nD) (i : grid0.Coords) (arg1 : Memref sig .tc .vmem S2048x128 .f32) (harg1 : arg1.IsWhole) (arg2 : Memref sig .tc .vmem S1x2048 .i32) (harg2 : arg2.IsWhole) (arg3 : Memref sig .tc .vmem S1024x128 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S512x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x1 .f32) (harg10 : arg10.IsWhole) (hc0 : ¬cond0_0 i) (hc1 : ¬cond0_1 i)
    (x0 : Vec F S2048x128 .f32) (x1 : Vec F S1x2048 .i32) (x2 : Vec F S1024x128 .f32) (x3 : Vec F S256x512 .f32) (x4 : Vec F S1x512 .f32) (x5 : Vec F S512x128 .f32) (x6 : Vec F S1x128 .f32) (xs0 : Vec F S1024x128 .f32) (xs1 : Vec F S1024x1 .f32) :
    sout0_B_1 c i arg1 harg1 arg2 harg2 arg3 harg3 arg4 harg4 arg5 harg5 arg6 harg6 arg7 harg7 arg8 harg8 arg9 harg9 arg10 harg10 hc0 hc1 x0 x1 x2 x3 x4 x5 x6 xs0 xs1 = k0_pay5 x1 xs1 := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 hc0 hc1 x0 x1 x2 x3 x4 x5 x6 xs0 xs1)]
  unfold kernelRun0_B
  dsimp only
  sl_unfold_words
  rw [View.canon_unit_zero (S := S1024x1) hz]
  simp only [View.readAt_eq_ld, harg1.read_unread, harg2.read_unread, harg3.read_unread, harg4.read_unread, harg5.read_unread, harg6.read_unread, harg7.read_unread, harg8.read_unread, harg9.read_unread, harg10.read_unread, View.ld_unit_zero (S := S1024x128) hz, View.ld_unit_zero (S := S2048x128) hz, View.ld_unit_zero (S := S1x2048) hz, View.ld_unit_zero (S := S1024x1) hz, View.ld_unit_zero (S := S256x512) hz, View.ld_unit_zero (S := S1x512) hz, View.ld_unit_zero (S := S512x128) hz, View.ld_unit_zero (S := S1x128) hz, View.readCov_unit_zero (S := S1024x128) _ hz, View.readCov_unit_zero (S := S1024x1) _ hz]

/-- The last point updates the feature sums like a middle point. -/
theorem sums_C (c : Dev nD) (i : grid0.Coords) (arg1 : Memref sig .tc .vmem S2048x128 .f32) (harg1 : arg1.IsWhole) (arg2 : Memref sig .tc .vmem S1x2048 .i32) (harg2 : arg2.IsWhole) (arg3 : Memref sig .tc .vmem S1024x128 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S512x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x1 .f32) (harg10 : arg10.IsWhole) (hc0 : ¬cond0_0 i) (hc1 : cond0_1 i)
    (x0 : Vec F S2048x128 .f32) (x1 : Vec F S1x2048 .i32) (x2 : Vec F S1024x128 .f32) (x3 : Vec F S256x512 .f32) (x4 : Vec F S1x512 .f32) (x5 : Vec F S512x128 .f32) (x6 : Vec F S1x128 .f32) (xs0 : Vec F S1024x128 .f32) (xs1 : Vec F S1024x1 .f32) :
    sout0_C_0 c i arg1 harg1 arg2 harg2 arg3 harg3 arg4 harg4 arg5 harg5 arg6 harg6 arg7 harg7 arg8 harg8 arg9 harg9 arg10 harg10 hc0 hc1 x0 x1 x2 x3 x4 x5 x6 xs0 xs1 = k0_pay4 x0 x1 xs0 := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 hc0 hc1 x0 x1 x2 x3 x4 x5 x6 xs0 xs1)]
  unfold kernelRun0_C
  dsimp only
  sl_unfold_words
  rw [View.canon_unit_zero (S := S1024x128) hz]
  simp only [View.readAt_eq_ld, harg1.read_unread, harg2.read_unread, harg3.read_unread, harg4.read_unread, harg5.read_unread, harg6.read_unread, harg7.read_unread, harg8.read_unread, harg9.read_unread, harg10.read_unread, View.ld_unit_zero (S := S1024x128) hz, View.ld_unit_zero (S := S2048x128) hz, View.ld_unit_zero (S := S1x2048) hz, View.ld_unit_zero (S := S1024x1) hz, View.ld_unit_zero (S := S256x512) hz, View.ld_unit_zero (S := S1x512) hz, View.ld_unit_zero (S := S512x128) hz, View.ld_unit_zero (S := S1x128) hz, View.readCov_unit_zero (S := S1024x128) _ hz, View.readCov_unit_zero (S := S1024x1) _ hz]

/-- The last point updates the row counts like a middle point. -/
theorem cnts_C (c : Dev nD) (i : grid0.Coords) (arg1 : Memref sig .tc .vmem S2048x128 .f32) (harg1 : arg1.IsWhole) (arg2 : Memref sig .tc .vmem S1x2048 .i32) (harg2 : arg2.IsWhole) (arg3 : Memref sig .tc .vmem S1024x128 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S512x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x1 .f32) (harg10 : arg10.IsWhole) (hc0 : ¬cond0_0 i) (hc1 : cond0_1 i)
    (x0 : Vec F S2048x128 .f32) (x1 : Vec F S1x2048 .i32) (x2 : Vec F S1024x128 .f32) (x3 : Vec F S256x512 .f32) (x4 : Vec F S1x512 .f32) (x5 : Vec F S512x128 .f32) (x6 : Vec F S1x128 .f32) (xs0 : Vec F S1024x128 .f32) (xs1 : Vec F S1024x1 .f32) :
    sout0_C_1 c i arg1 harg1 arg2 harg2 arg3 harg3 arg4 harg4 arg5 harg5 arg6 harg6 arg7 harg7 arg8 harg8 arg9 harg9 arg10 harg10 hc0 hc1 x0 x1 x2 x3 x4 x5 x6 xs0 xs1 = k0_pay5 x1 xs1 := by
  unfold sout0_C_1
  rw [View.read_writes_eq_canon _ _ _ (scover0_C_1 c i arg1 harg1 arg2 harg2 arg3 harg3 arg4 harg4 arg5 harg5 arg6 harg6 arg7 harg7 arg8 harg8 arg9 harg9 arg10 harg10 hc0 hc1 x0 x1 x2 x3 x4 x5 x6 xs0 xs1)]
  unfold kernelRun0_C
  dsimp only
  sl_unfold_words
  rw [View.canon_unit_zero (S := S1024x1) hz]
  simp only [View.readAt_eq_ld, harg1.read_unread, harg2.read_unread, harg3.read_unread, harg4.read_unread, harg5.read_unread, harg6.read_unread, harg7.read_unread, harg8.read_unread, harg9.read_unread, harg10.read_unread, View.ld_unit_zero (S := S1024x128) hz, View.ld_unit_zero (S := S2048x128) hz, View.ld_unit_zero (S := S1x2048) hz, View.ld_unit_zero (S := S1024x1) hz, View.ld_unit_zero (S := S256x512) hz, View.ld_unit_zero (S := S1x512) hz, View.ld_unit_zero (S := S512x128) hz, View.ld_unit_zero (S := S1x128) hz, View.readCov_unit_zero (S := S1024x128) _ hz, View.readCov_unit_zero (S := S1024x1) _ hz]

/-- The last point stores the output block: the two layers applied to the joined row of the globals and the means of the UPDATED totals. -/
theorem out_C (c : Dev nD) (i : grid0.Coords) (arg1 : Memref sig .tc .vmem S2048x128 .f32) (harg1 : arg1.IsWhole) (arg2 : Memref sig .tc .vmem S1x2048 .i32) (harg2 : arg2.IsWhole) (arg3 : Memref sig .tc .vmem S1024x128 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S512x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x1 .f32) (harg10 : arg10.IsWhole) (hc0 : ¬cond0_0 i) (hc1 : cond0_1 i)
    (x0 : Vec F S2048x128 .f32) (x1 : Vec F S1x2048 .i32) (x2 : Vec F S1024x128 .f32) (x3 : Vec F S256x512 .f32) (x4 : Vec F S1x512 .f32) (x5 : Vec F S512x128 .f32) (x6 : Vec F S1x128 .f32) (xs0 : Vec F S1024x128 .f32) (xs1 : Vec F S1024x1 .f32) :
    out0_C_7 c i arg1 harg1 arg2 harg2 arg3 harg3 arg4 harg4 arg5 harg5 arg6 harg6 arg7 harg7 arg8 harg8 arg9 harg9 arg10 harg10 hc0 hc1 x0 x1 x2 x3 x4 x5 x6 xs0 xs1 = k0_pay6 (k0_pay4 x0 x1 xs0) (k0_pay5 x1 xs1) x2 x3 x4 x5 x6 := by
  unfold out0_C_7
  rw [View.read_writes_eq_canon _ _ _ (cover0_C_7 c i arg1 harg1 arg2 harg2 arg3 harg3 arg4 harg4 arg5 harg5 arg6 harg6 arg7 harg7 arg8 harg8 arg9 harg9 arg10 harg10 hc0 hc1 x0 x1 x2 x3 x4 x5 x6 xs0 xs1)]
  unfold kernelRun0_C
  dsimp only
  sl_unfold_words
  rw [View.canon_unit_zero (S := S1024x128) hz]
  simp only [View.readAt_eq_ld, harg1.read_unread, harg2.read_unread, harg3.read_unread, harg4.read_unread, harg5.read_unread, harg6.read_unread, harg7.read_unread, harg8.read_unread, harg9.read_unread, harg10.read_unread, View.ld_unit_zero (S := S1024x128) hz, View.ld_unit_zero (S := S2048x128) hz, View.ld_unit_zero (S := S1x2048) hz, View.ld_unit_zero (S := S1024x1) hz, View.ld_unit_zero (S := S256x512) hz, View.ld_unit_zero (S := S1x512) hz, View.ld_unit_zero (S := S512x128) hz, View.ld_unit_zero (S := S1x128) hz, View.readCov_unit_zero (S := S1024x128) _ hz, View.readCov_unit_zero (S := S1024x1) _ hz]

end Cert.SegMeanMlp.Cases

end
-- ==== Proof.LibSegmentSum.lean ====
import Mathlib.Data.EReal.Inv
import Mathlib.Algebra.BigOperators.Fin
import Mathlib.Algebra.BigOperators.Group.Finset.Basic
import Mathlib.Algebra.BigOperators.Group.Finset.Piecewise
import Mathlib.Data.Fintype.BigOperators
import Mathlib.Logic.Equiv.Fin.Basic

/-!
# Segment sums and gathers written as one-hot matrix products

A gather `h[src e]` can be computed as the product of a one-hot row `(src e = k)_k` with `h`,
and a scatter-add (segment sum) `∑_{e : dst e = n} m e` as the product of the transposed
one-hot matrix `(n = dst e)_e` with `m`; either product can be accumulated block by block.
The lemmas of this file say that these products are the plain gather and the plain segment sum,
over the extended reals (where `0 * x = 0` for every `x`, infinite ones included) and with
node identifiers read as 32-bit two's complement words.
-/

namespace Cert.LibSegmentSum

open Finset

/-! ## Sums read block by block -/

/-- The position `a * B + b` of the `b`-th entry of the `a`-th block lies below `A * B`. -/
theorem blk_lt {A B : ℕ} (a : Fin A) (b : Fin B) : a.val * B + b.val < A * B := by
  calc a.val * B + b.val < a.val * B + B := Nat.add_lt_add_left b.isLt _
    _ = (a.val + 1) * B := (Nat.succ_mul _ _).symm
    _ ≤ A * B := Nat.mul_le_mul_right _ a.isLt

/-- A sum over `A * B` positions is the sum over the `A` blocks of the sums over the `B`
positions `a * B + b` of each block. -/
theorem sum_blocks {M : Type*} [AddCommMonoid M] (A B : ℕ) (f : Fin (A * B) → M) :
    ∑ a : Fin A, ∑ b : Fin B, f ⟨a.val * B + b.val, blk_lt a b⟩ = ∑ n : Fin (A * B), f n := by
  calc ∑ a : Fin A, ∑ b : Fin B, f ⟨a.val * B + b.val, blk_lt a b⟩
      = ∑ x : Fin A × Fin B, f ⟨x.1.val * B + x.2.val, blk_lt x.1 x.2⟩ :=
        (Fintype.sum_prod_type' (fun a b => f ⟨a.val * B + b.val, blk_lt a b⟩)).symm
    _ = ∑ x : Fin A × Fin B, f (finProdFinEquiv x) := by
        refine Fintype.sum_congr _ _ fun x => congrArg f (Fin.ext ?_)
        show x.1.val * B + x.2.val = x.2.val + B * x.1.val
        rw [Nat.mul_comm, Nat.add_comm]
    _ = ∑ n : Fin (A * B), f n := Equiv.sum_comp finProdFinEquiv f

/-- An accumulator that starts at `0` and adds `g a` at step `a` holds `∑ a < A, g a`
after `A` steps. -/
theorem acc_eq_sum {M : Type*} [AddCommMonoid M] (A : ℕ) (g : ℕ → M) (acc : ℕ → M)
    (h0 : acc 0 = 0) (hs : ∀ a, a < A → acc (a + 1) = acc a + g a) :
    acc A = ∑ a : Fin A, g a.val := by
  induction A with
  | zero => simpa using h0
  | succ A ih =>
    rw [hs A (Nat.lt_succ_self A), ih (fun a ha => hs a (Nat.lt_succ_of_lt ha)),
      Fin.sum_univ_castSucc]
    rfl

/-- The accumulator recursion of a blocked sum: starting at `0` and adding at step `a` the
partial sum `0 + ∑ b, f (a * B + b)` of block `a` gives, after `A` steps, the whole sum. -/
theorem acc_blocks {M : Type*} [AddCommMonoid M] (A B : ℕ) (f : Fin (A * B) → M) (acc : ℕ → M)
    (h0 : acc 0 = 0)
    (hs : ∀ a (ha : a < A), acc (a + 1)
      = acc a + (0 + ∑ b : Fin B, f ⟨a * B + b.val, blk_lt ⟨a, ha⟩ b⟩)) :
    acc A = ∑ n : Fin (A * B), f n := by
  have h := acc_eq_sum A
    (fun a => if ha : a < A then (0 + ∑ b : Fin B, f ⟨a * B + b.val, blk_lt ⟨a, ha⟩ b⟩) else 0)
    acc h0 (fun a ha => by rw [hs a ha, dif_pos ha])
  rw [h, ← sum_blocks]
  refine Fintype.sum_congr _ _ fun a => ?_
  rw [dif_pos a.isLt, zero_add]

/-- `sum_blocks` at `125` blocks of `800`: a sum over `100000` positions. -/
theorem sum_blocks_125_800 {M : Type*} [AddCommMonoid M] (f : Fin 100000 → M) :
    ∑ a : Fin 125, ∑ b : Fin 800, f ⟨a.val * 800 + b.val, blk_lt (A := 125) a b⟩
      = ∑ n : Fin 100000, f n :=
  sum_blocks 125 800 f

/-- `sum_blocks` at `208` blocks of `8192`: a sum over `1703936` positions. -/
theorem sum_blocks_208_8192 {M : Type*} [AddCommMonoid M] (f : Fin 1703936 → M) :
    ∑ a : Fin 208, ∑ b : Fin 8192, f ⟨a.val * 8192 + b.val, blk_lt (A := 208) a b⟩
      = ∑ n : Fin 1703936, f n :=
  sum_blocks 208 8192 f

/-- `acc_blocks` at `125` blocks of `800`. -/
theorem acc_blocks_125_800 {M : Type*} [AddCommMonoid M] (f : Fin 100000 → M) (acc : ℕ → M)
    (h0 : acc 0 = 0)
    (hs : ∀ a (ha : a < 125), acc (a + 1)
      = acc a + (0 + ∑ b : Fin 800, f ⟨a * 800 + b.val, blk_lt (A := 125) ⟨a, ha⟩ b⟩)) :
    acc 125 = ∑ n : Fin 100000, f n :=
  acc_blocks 125 800 f acc h0 hs

/-- `acc_blocks` at `208` blocks of `8192`. -/
theorem acc_blocks_208_8192 {M : Type*} [AddCommMonoid M] (f : Fin 1703936 → M) (acc : ℕ → M)
    (h0 : acc 0 = 0)
    (hs : ∀ a (ha : a < 208), acc (a + 1)
      = acc a + (0 + ∑ b : Fin 8192, f ⟨a * 8192 + b.val, blk_lt (A := 208) ⟨a, ha⟩ b⟩)) :
    acc 208 = ∑ n : Fin 1703936, f n :=
  acc_blocks 208 8192 f acc h0 hs

/-! ## Node identifiers as 32-bit words -/

/-- A natural number below `2^31`, written as a 32-bit word, reads back as itself in two's
complement. -/
theorem toInt_ofNat_small (n : ℕ) (hn : n < 2 ^ 31) : (BitVec.ofNat 32 n).toInt = (n : ℤ) := by
  have hm : n % 2 ^ 32 = n := Nat.mod_eq_of_lt (by omega)
  rw [BitVec.toInt_eq_toNat_cond, BitVec.toNat_ofNat, hm]
  split <;> omega

/-- A word whose two's complement value lies in `[0, N)` has a natural value below `N`. -/
theorem toNat_lt_of_range {s : BitVec 32} {N : ℕ} (hs : 0 ≤ s.toInt ∧ s.toInt < (N : ℤ)) :
    s.toInt.toNat < N := by
  obtain ⟨h0, h1⟩ := hs
  omega

/-- For `n < 2^31`, a word equals the word of `n` exactly when its two's complement value
is `n`. -/
theorem eq_ofNat_iff (s : BitVec 32) (n : ℕ) (hn : n < 2 ^ 31) :
    s = BitVec.ofNat 32 n ↔ s.toInt = (n : ℤ) := by
  rw [← BitVec.toInt_inj, toInt_ofNat_small n hn]

/-- The same with the two sides of the equation exchanged. -/
theorem ofNat_eq_iff (s : BitVec 32) (n : ℕ) (hn : n < 2 ^ 31) :
    BitVec.ofNat 32 n = s ↔ s.toInt = (n : ℤ) := by
  rw [eq_comm]; exact eq_ofNat_iff s n hn

/-! ## One-hot selection -/

/-- The product of the one-hot row of an in-range identifier `s` with a column `h` is the
entry `h s`: a gather. -/
theorem onehot_select (N : ℕ) (hN : N ≤ 2 ^ 31) (s : BitVec 32) (h : Fin N → EReal)
    (hs : 0 ≤ s.toInt ∧ s.toInt < (N : ℤ)) :
    ∑ n : Fin N, (if s = BitVec.ofNat 32 n.val then (1 : EReal) else 0) * h n
      = h ⟨s.toInt.toNat, toNat_lt_of_range hs⟩ := by
  have key : ∀ n : Fin N, s = BitVec.ofNat 32 n.val ↔ n = ⟨s.toInt.toNat, toNat_lt_of_range hs⟩ := by
    intro n
    have hn := n.isLt
    rw [eq_ofNat_iff s n.val (by omega), Fin.ext_iff]
    show s.toInt = (n.val : ℤ) ↔ n.val = s.toInt.toNat
    obtain ⟨h0, h1⟩ := hs
    omega
  simp only [key, ite_mul, one_mul, zero_mul]
  rw [Finset.sum_ite_eq']
  exact if_pos (mem_univ _)

/-- The one-hot row of an identifier that is negative or not below `N` is zero, and so is its
product with any column. -/
theorem onehot_select_out (N : ℕ) (hN : N ≤ 2 ^ 31) (s : BitVec 32) (h : Fin N → EReal)
    (hs : s.toInt < 0 ∨ (N : ℤ) ≤ s.toInt) :
    ∑ n : Fin N, (if s = BitVec.ofNat 32 n.val then (1 : EReal) else 0) * h n = 0 := by
  refine Finset.sum_eq_zero fun n _ => ?_
  have hn := n.isLt
  have hne : ¬ s = BitVec.ofNat 32 n.val := by
    rw [eq_ofNat_iff s n.val (by omega)]
    omega
  rw [if_neg hne, zero_mul]

/-! ## A message-passing layer with zero padding -/

/-- Gather, weight and scatter-add as two one-hot products over a zero-padded edge list:
for `E` edges `(src e, dst e)` with weights `nrm e`, every `src e` in `[0, N)`, extended by
`P` padding edges of weight `0` (whatever their end points), the product of the transposed
one-hot matrix of the destinations with the weighted gathered rows is the segment sum
`∑_{e : dst e = n} nrm e * h (src e)`.  Nothing is asked of `dst`: a destination that is
negative or not below `N` matches no `n` on either side. -/
theorem layer_padded (N E P : ℕ) (hN : N ≤ 2 ^ 31)
    (src dst : Fin E → BitVec 32) (nrm : Fin E → EReal) (h : Fin N → EReal)
    (hsrc : ∀ e, 0 ≤ (src e).toInt ∧ (src e).toInt < (N : ℤ))
    (srcP dstP : Fin (E + P) → BitVec 32) (nrmP : Fin (E + P) → EReal)
    (hsrcP : ∀ (e : Fin (E + P)) (he : e.val < E), srcP e = src ⟨e.val, he⟩)
    (hdstP : ∀ (e : Fin (E + P)) (he : e.val < E), dstP e = dst ⟨e.val, he⟩)
    (hnrmP : ∀ (e : Fin (E + P)) (he : e.val < E), nrmP e = nrm ⟨e.val, he⟩)
    (hnrm0 : ∀ e : Fin (E + P), E ≤ e.val → nrmP e = 0)
    (n : Fin N) :
    ∑ e : Fin (E + P), (if BitVec.ofNat 32 n.val = dstP e then (1 : EReal) else 0)
        * ((∑ k : Fin N, (if srcP e = BitVec.ofNat 32 k.val then (1 : EReal) else 0) * h k)
            * nrmP e)
      = ∑ e ∈ Finset.univ.filter (fun e : Fin E => (dst e).toInt = (n.val : ℤ)),
          nrm e * h ⟨(src e).toInt.toNat, toNat_lt_of_range (hsrc e)⟩ := by
  have hn : n.val < 2 ^ 31 := lt_of_lt_of_le n.isLt hN
  rw [Fin.sum_univ_add]
  -- the padding edges carry weight zero
  have hpad : ∑ i : Fin P, (if BitVec.ofNat 32 n.val = dstP (Fin.natAdd E i) then (1 : EReal) else 0)
        * ((∑ k : Fin N, (if srcP (Fin.natAdd E i) = BitVec.ofNat 32 k.val then (1 : EReal) else 0)
              * h k) * nrmP (Fin.natAdd E i)) = 0 :=
    Finset.sum_eq_zero fun i _ => by
      rw [hnrm0 (Fin.natAdd E i) (Nat.le_add_right E i.val), mul_zero, mul_zero]
  rw [hpad, add_zero, Finset.sum_filter]
  refine Fintype.sum_congr _ _ fun e => ?_
  have he : (Fin.castAdd P e).val < E := e.isLt
  rw [hsrcP _ he, hdstP _ he, hnrmP _ he]
  show (if BitVec.ofNat 32 n.val = dst e then (1 : EReal) else 0)
      * ((∑ k : Fin N, (if src e = BitVec.ofNat 32 k.val then (1 : EReal) else 0) * h k) * nrm e)
    = if (dst e).toInt = (n.val : ℤ) then
        nrm e * h ⟨(src e).toInt.toNat, toNat_lt_of_range (hsrc e)⟩ else 0
  rw [onehot_select N hN (src e) h (hsrc e)]
  by_cases hd : (dst e).toInt = (n.val : ℤ)
  · rw [if_pos hd, if_pos ((ofNat_eq_iff (dst e) n.val hn).2 hd), one_mul, mul_comm]
  · rw [if_neg hd, if_neg (fun h' => hd ((ofNat_eq_iff (dst e) n.val hn).1 h')), zero_mul]

/-- `layer_padded` at `100000` nodes and `1700000` edges padded to `1703936`. -/
theorem layer_padded_100000
    (src dst : Fin 1700000 → BitVec 32) (nrm : Fin 1700000 → EReal) (h : Fin 100000 → EReal)
    (hsrc : ∀ e, 0 ≤ (src e).toInt ∧ (src e).toInt < ((100000 : ℕ) : ℤ))
    (srcP dstP : Fin 1703936 → BitVec 32) (nrmP : Fin 1703936 → EReal)
    (hsrcP : ∀ (e : Fin 1703936) (he : e.val < 1700000), srcP e = src ⟨e.val, he⟩)
    (hdstP : ∀ (e : Fin 1703936) (he : e.val < 1700000), dstP e = dst ⟨e.val, he⟩)
    (hnrmP : ∀ (e : Fin 1703936) (he : e.val < 1700000), nrmP e = nrm ⟨e.val, he⟩)
    (hnrm0 : ∀ e : Fin 1703936, 1700000 ≤ e.val → nrmP e = 0)
    (n : Fin 100000) :
    ∑ e : Fin 1703936, (if BitVec.ofNat 32 n.val = dstP e then (1 : EReal) else 0)
        * ((∑ k : Fin 100000, (if srcP e = BitVec.ofNat 32 k.val then (1 : EReal) else 0) * h k)
            * nrmP e)
      = ∑ e ∈ Finset.univ.filter (fun e : Fin 1700000 => (dst e).toInt = (n.val : ℤ)),
          nrm e * h ⟨(src e).toInt.toNat, toNat_lt_of_range (hsrc e)⟩ :=
  layer_padded 100000 1700000 3936 (by norm_num) src dst nrm h hsrc srcP dstP nrmP
    hsrcP hdstP hnrmP hnrm0 n

end Cert.LibSegmentSum
-- ==== Proof.Spec.lean ====
/-
  The function both programs compute, entry by entry, over the extended reals.

  Rows e = 0 … 999999 carry a feature vector x e and a segment word seg e. Segment b (0 ≤ b < 1024) owns the rows
  whose word, read as a signed integer, equals b; a word that is negative or not below 1024 belongs to no segment.
  * segSum x seg b d is the sum of x e d over the rows of segment b, segCnt seg b the number of those rows;
  * mean divides the sum by the count clamped below at 1;
  * the row (u p, mean p) of 256 entries goes through two affine layers with a rectifier in between:
    hidden p k = max (Σ_c cat p c · W1 c k + b1 k) 0,  out p q = Σ_k hidden p k · W2 k q + b2 q.

  The second half is the law that joins a blocked one-hot product to the segment sum: over a list of rows extended
  by padding rows whose segment word is −1, the sum of (1 if word(b) = seg n else 0) · x n over ALL rows, padding
  included, is the sum of x over the rows of segment b. It needs nothing of x: 0 · x = 0 for every extended real, and
  −1 is no segment number. The same with x = 1 counts the rows.
-/
import Idealize.ShloMosaic.PureOps.Ideal
import Idealize.ShloMosaic.Lib.ValueIdx
import proofs.«400438_j2714419331676_1_alg».proof.Proof.LibSegmentSum

noncomputable section

namespace Cert.SegMeanMlp

open Idealize.ShloMosaic
open scoped BigOperators

/-- The rows of segment `b`: those whose segment word, read signed, is `b`. -/
def rowsOf {E : ℕ} (seg : Fin E → BitVec 32) (b : ℕ) : Finset (Fin E) :=
  Finset.univ.filter fun e => (seg e).toInt = (b : ℤ)

/-- The sum of the feature `d` over the rows of segment `b`. -/
def segSum {E : ℕ} (x : Fin E → Fin 128 → EReal) (seg : Fin E → BitVec 32) (b : Fin 1024) (d : Fin 128) : EReal :=
  ∑ e ∈ rowsOf seg b.val, x e d

/-- The number of rows of segment `b`. -/
def segCnt {E : ℕ} (seg : Fin E → BitVec 32) (b : Fin 1024) : EReal :=
  ∑ _e ∈ rowsOf seg b.val, (1 : EReal)

/-- The mean of a segment: its sum over its count clamped below at one. -/
def mean (sums : Fin 1024 → Fin 128 → EReal) (cnts : Fin 1024 → EReal) (b : Fin 1024) (d : Fin 128) : EReal :=
  Ideal.div (sums b d) (max (cnts b) (Ideal.ofBits .f32 0x3F800000#32))

/-- The first layer with its rectifier. -/
def hidden (cat : Fin 1024 → Fin 256 → EReal) (W1 : Fin 256 → Fin 512 → EReal) (b1 : Fin 512 → EReal)
    (p : Fin 1024) (k : Fin 512) : EReal :=
  max ((∑ c : Fin 256, cat p c * W1 c k) + b1 k) (Ideal.ofBits .f32 0x00000000#32)

/-- The second layer. -/
def out (cat : Fin 1024 → Fin 256 → EReal) (W1 : Fin 256 → Fin 512 → EReal) (b1 : Fin 512 → EReal)
    (W2 : Fin 512 → Fin 128 → EReal) (b2 : Fin 128 → EReal) (p : Fin 1024) (q : Fin 128) : EReal :=
  (∑ k : Fin 512, hidden cat W1 b1 p k * W2 k q) + b2 q

/-- The row `(u p, mn p)` of 256 entries: the first 128 from `u`, the last 128 from `mn`. -/
def catRows (u mn : Fin 1024 → Fin 128 → EReal) (p : Fin 1024) (c : Fin 256) : EReal :=
  if h : c.val < 128 then u p ⟨c.val, h⟩ else mn p ⟨c.val - 128, by have := c.isLt; omega⟩

/-- THE WHOLE FUNCTION of the argument arrays: node features `x` [1000000, 128], segment words `seg` [1000000],
    globals `u` [1024, 128], and the two layers' weights and biases; the result is [1024, 128]. -/
def G (x : (⟨2, ![1000000, 128]⟩ : Shape).Idx → EReal) (seg : (⟨1, ![1000000]⟩ : Shape).Idx → BitVec 32)
    (u : (⟨2, ![1024, 128]⟩ : Shape).Idx → EReal) (W1 : (⟨2, ![256, 512]⟩ : Shape).Idx → EReal)
    (b1 : (⟨1, ![512]⟩ : Shape).Idx → EReal) (W2 : (⟨2, ![512, 128]⟩ : Shape).Idx → EReal)
    (b2 : (⟨1, ![128]⟩ : Shape).Idx → EReal) : (⟨2, ![1024, 128]⟩ : Shape).Idx → EReal := fun i =>
  out (catRows (fun p c => u (ValueIdx.ix2 p c))
        (mean (segSum (fun e d => x (ValueIdx.ix2 e d)) (fun e => seg (ValueIdx.ix1 e)))
          (segCnt (fun e => seg (ValueIdx.ix1 e)))))
    (fun c k => W1 (ValueIdx.ix2 c k)) (fun k => b1 (ValueIdx.ix1 k)) (fun k q => W2 (ValueIdx.ix2 k q))
    (fun q => b2 (ValueIdx.ix1 q)) (i 0) (i 1)

/-! ## One-hot weights over padded rows -/

/-- The weight of row word `s` in the one-hot row of segment `b`. -/
def hot (b : ℕ) (s : BitVec 32) : EReal := if BitVec.ofNat 32 b = s then 1 else 0

/-- The weighted sum over `E` rows followed by `P` padding rows of segment word −1 is the sum over the rows of the
    segment: a padding row and a row of another segment weigh `0`, and `0 · x = 0` whatever `x` is. -/
theorem hot_sum_padded {E P : ℕ} (b : ℕ) (hb : b < 2 ^ 31) (seg : Fin E → BitVec 32) (x : Fin E → EReal)
    (segP : Fin (E + P) → BitVec 32) (xP : Fin (E + P) → EReal)
    (hseg : ∀ (n : Fin (E + P)) (h : n.val < E), segP n = seg ⟨n.val, h⟩)
    (hx : ∀ (n : Fin (E + P)) (h : n.val < E), xP n = x ⟨n.val, h⟩)
    (hpad : ∀ n : Fin (E + P), E ≤ n.val → (segP n).toInt = -1) :
    ∑ n : Fin (E + P), hot b (segP n) * xP n = ∑ e ∈ rowsOf seg b, x e := by
  rw [Fin.sum_univ_add]
  have hp : ∑ i : Fin P, hot b (segP (Fin.natAdd E i)) * xP (Fin.natAdd E i) = 0 :=
    Finset.sum_eq_zero fun i _ => by
      have h1 := hpad (Fin.natAdd E i) (Nat.le_add_right E i.val)
      have hne : ¬ BitVec.ofNat 32 b = segP (Fin.natAdd E i) := by
        rw [Cert.LibSegmentSum.ofNat_eq_iff _ b hb, h1]; omega
      unfold hot
      rw [if_neg hne, zero_mul]
  rw [hp, add_zero]
  unfold rowsOf
  rw [Finset.sum_filter]
  refine Fintype.sum_congr _ _ fun e => ?_
  have he : (Fin.castAdd P e).val < E := e.isLt
  rw [hseg _ he, hx _ he]
  show hot b (seg e) * x e = if (seg e).toInt = (b : ℤ) then x e else 0
  unfold hot
  by_cases hd : (seg e).toInt = (b : ℤ)
  · rw [if_pos hd, if_pos ((Cert.LibSegmentSum.ofNat_eq_iff (seg e) b hb).2 hd), one_mul]
  · rw [if_neg hd, if_neg (fun h' => hd ((Cert.LibSegmentSum.ofNat_eq_iff (seg e) b hb).1 h')), zero_mul]

/-- The same with every row weighing one: the one-hot weights over the padded rows add up to the segment's count. -/
theorem hot_count_padded {E P : ℕ} (b : ℕ) (hb : b < 2 ^ 31) (seg : Fin E → BitVec 32)
    (segP : Fin (E + P) → BitVec 32)
    (hseg : ∀ (n : Fin (E + P)) (h : n.val < E), segP n = seg ⟨n.val, h⟩)
    (hpad : ∀ n : Fin (E + P), E ≤ n.val → (segP n).toInt = -1) :
    ∑ n : Fin (E + P), hot b (segP n) = ∑ _e ∈ rowsOf seg b, (1 : EReal) := by
  have h := hot_sum_padded (P := P) b hb seg (fun _ => (1 : EReal)) segP (fun _ => 1) hseg (fun _ _ => rfl) hpad
  simpa only [mul_one] using h

end Cert.SegMeanMlp

end
-- ==== Proof.Concat.lean ====
/-
  A row of 256 entries made by laying two blocks of 128 columns side by side: read at (p, c), the joined array is
  the first block at (p, c) when c < 128 and the second block at (p, c − 128) otherwise.
-/
import Idealize.ShloMosaic.Lib.Pipeline.Value
import Idealize.ShloMosaic.Lib.ValueIdx

noncomputable section

namespace Cert.SegMeanMlp

open Idealize.ShloMosaic Idealize.ShloMosaic.ValueIdx

/-- Two [1024, 128] arrays joined along the column axis, read at row `p`, column `c`. -/
theorem concat_cols_apply {α : Type}
    (h : Shape.Concatenates [(⟨2, ![1024, 128]⟩ : Shape), (⟨2, ![1024, 128]⟩ : Shape)] (⟨2, ![1024, 256]⟩ : Shape) 1)
    (a b : (⟨2, ![1024, 128]⟩ : Shape).Idx → α) (p : Fin 1024) (c : Fin 256) :
    concatenate (⟨2, ![1024, 256]⟩ : Shape) 1 [⟨(⟨2, ![1024, 128]⟩ : Shape), a⟩, ⟨(⟨2, ![1024, 128]⟩ : Shape), b⟩] h (ix2 p c)
      = if hc : c.val < 128 then a (ix2 p ⟨c.val, hc⟩)
        else b (ix2 p ⟨c.val - 128, by have := c.isLt; omega⟩) := by
  by_cases hc : c.val < 128
  · rw [dif_pos hc]
    refine concatenate_pair_apply_left (1 : Fin 2) a b h (ix2 p c) rfl (ix2 p ⟨c.val, hc⟩) ?_
    intro d
    match d with
    | ⟨0, _⟩ => rfl
    | ⟨1, _⟩ => rfl
  · rw [dif_neg hc]
    refine concatenate_pair_apply_right (1 : Fin 2) a b h (ix2 p c) rfl rfl
      (ix2 p ⟨c.val - 128, by have := c.isLt; omega⟩) ?_ ?_
    · intro d hd
      match d with
      | ⟨0, _⟩ => rfl
      | ⟨1, _⟩ => exact absurd rfl hd
    · show (c.val - 128) + 128 = c.val
      omega

end Cert.SegMeanMlp

end
-- ==== Proof.LibPlainRows.lean ====
/-
  Plain matrix products, a bias row, and the leaky rectifier, read one entry at a time at the ideal values.

  * A product of an m×k by a k×n matrix that contracts the left operand's last axis with the right operand's
    first, read at (a, b), is the sum over c of left (a, c) · right (c, b) — for the host's product and for a
    kernel's product accumulated into the zero splat alike (`dotGeneral_rows_apply`, `matmul_zero_rows_apply`).
    The dimension record is any one that EQUALS the plain record; at a literal record that equation is `rfl`.
  * A vector of n entries laid along every row of an m×n matrix, read at (p, q), is the vector's entry q: the
    kernel spells it as a broadcast of the vector's one-row cast (`rowCast_broadcast_apply`), the host as two
    broadcasts in dimensions (`rowBroadcast_apply`).
  * The leaky rectifier `h ↦ h` where the test holds, `slope · h` elsewhere, gives the same value whether the test
    is `h > 0` or `h ≥ 0`: the two tests differ at `h = 0` only, where `slope · 0 = 0 = h`. No finiteness is used:
    at `⊤` and `⊥` both tests agree.
-/
import Idealize.ShloMosaic.Lib.StackMember

noncomputable section

namespace Idealize.ShloMosaic.PlainRows

open Idealize.ShloMosaic Idealize.ShloMosaic.ValueIdx

/-! ## Products -/

/-- The host's product over a record equal to the plain one, at (a, b): the sum over the contracted coordinate. -/
theorem dotGeneral_rows_apply {m k n : Nat} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    Host.dotGeneral d prec A B (ix2 a b) = ∑ c : Fin k, A (ix2 a c) * B (ix2 c b) := by
  subst hd
  exact StackMember.dotGeneral_plain_apply prec A B a b

/-- A kernel's product into the zero splat over such a record, at (a, b): the same sum. -/
theorem matmul_zero_rows_apply {m k n : Nat} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    matmul d prec A B (constant ⟨2, ![m, n]⟩ .f32 0x00000000#32) (ix2 a b) = ∑ c : Fin k, A (ix2 a c) * B (ix2 c b) := by
  rw [matmul_zero_eq_dotGeneral]
  exact dotGeneral_rows_apply d hd prec A B a b

/-! ## A vector along every row -/

section Rows
variable {α : Type}

/-- The kernel's spelling: the vector cast to one row, broadcast down m rows; at (p, q) it is entry q. -/
theorem rowCast_broadcast_apply {m n : Nat} (x : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (p : Fin m) (q : Fin n) :
    broadcastTo ⟨2, ![m, n]⟩ (shapeCast ⟨2, ![1, n]⟩ x h1) hb (ix2 p q) = x (ix1 q) := by
  have e1 := broadcastTo_apply (shapeCast ⟨2, ![1, n]⟩ x h1) hb (ix2 p q) (ix2 (0 : Fin 1) q) (by
    intro a
    match a with
    | ⟨0, _⟩ => rfl
    | ⟨1, _⟩ =>
      show q.val = if n = 1 then 0 else q.val
      split
      · have := q.isLt; omega
      · rfl)
  have e2 := shapeCast_apply x h1 (ix2 (0 : Fin 1) q) (ix1 q) (by
    rw [Shape.rowMajor_val_two, Shape.rowMajor_val_one]; show q.val = 0 * n + q.val; omega)
  exact e1.trans e2

/-- The host's spelling: the vector broadcast along axis 1 into one row, that row broadcast down m rows; at
    (p, q) it is entry q. -/
theorem rowBroadcast_apply {m n : Nat} (x : (⟨1, ![n]⟩ : Shape).Idx → α)
    (hd : (⟨1, ![n]⟩ : Shape).BroadcastsInDim ⟨2, ![1, n]⟩ ![1])
    (hbc : (⟨2, ![1, n]⟩ : Shape).BroadcastsInDim ⟨2, ![m, n]⟩ ![0, 1]) (p : Fin m) (q : Fin n) :
    broadcastInDim ⟨2, ![m, n]⟩ ![0, 1] hbc (broadcastInDim ⟨2, ![1, n]⟩ ![1] hd x) (ix2 p q) = x (ix1 q) := by
  rw [broadcastInDim_oneRow_apply hbc _ p q]
  refine broadcastInDim_apply ![1] hd x (ix2 (0 : Fin 1) q) (ix1 q) ?_
  intro a
  match a with
  | ⟨0, _⟩ =>
    show q.val = if n = 1 then 0 else q.val
    split
    · have := q.isLt; omega
    · rfl

end Rows

/-! ## The leaky rectifier -/

/-- The leaky rectifier with the STRICT test: `h` above zero, `s · h` elsewhere. -/
def leaky (s h : EReal) : EReal := if 0 < h then h else s * h

/-- With the test `0 ≤ h` the value is the same: at `h = 0` the other branch is `s · 0 = 0`. -/
theorem leaky_of_le_test (s h : EReal) : (if 0 ≤ h then h else s * h) = leaky s h := by
  unfold leaky
  by_cases h0 : 0 < h
  · rw [if_pos h0, if_pos h0.le]
  · by_cases h1 : 0 ≤ h
    · have e : h = 0 := le_antisymm (not_lt.mp h0) h1
      rw [if_pos h1, if_neg h0, e, mul_zero]
    · rw [if_neg h1, if_neg h0]

/-- A select on the ordered comparison `h > z`, for a pattern `z` that denotes zero. -/
theorem select_ogt {φ : FTy} (z : BitVec φ.bits) (hz : Ideal.ofBits φ z = 0) (h a b : Ideal φ) :
    Scalar.select (FloatOps.cmpf .ogt h (Scalar.ofBits (F := Ideal) φ z)) a b = if 0 < h then a else b := by
  show Scalar.select (Ideal.cmp .ogt h (Ideal.ofBits φ z)) a b = _
  rw [hz]
  unfold Scalar.select Ideal.cmp
  by_cases h0 : (0 : EReal) < h <;> simp [h0]

/-- A select on the ordered comparison `h ≥ z`, for a pattern `z` that denotes zero. -/
theorem select_oge {φ : FTy} (z : BitVec φ.bits) (hz : Ideal.ofBits φ z = 0) (h a b : Ideal φ) :
    Scalar.select (FloatOps.cmpf .oge h (Scalar.ofBits (F := Ideal) φ z)) a b = if 0 ≤ h then a else b := by
  show Scalar.select (Ideal.cmp .oge h (Ideal.ofBits φ z)) a b = _
  rw [hz]
  unfold Scalar.select Ideal.cmp
  by_cases h0 : (0 : EReal) ≤ h <;> simp [h0]

/-- The kernel's rectifier at one entry: a select on `h > 0` between `h` and `s · h`. -/
theorem select_ogt_leaky (s : BitVec 32) (h : Ideal .f32) :
    Scalar.select (FloatOps.cmpf .ogt h (Scalar.ofBits (F := Ideal) .f32 0x00000000#32)) h
      (Scalar.ofBits (F := Ideal) .f32 s * h) = leaky (Ideal.ofBits .f32 s) h :=
  select_ogt _ Ideal.ofBits_zero_f32 h _ _

/-- The host's rectifier at one entry: a select on `h ≥ 0` between `h` and `s · h`: the same value. -/
theorem select_oge_leaky (s : BitVec 32) (h : Ideal .f32) :
    Scalar.select (FloatOps.cmpf .oge h (Scalar.ofBits (F := Ideal) .f32 0x00000000#32)) h
      (Scalar.ofBits (F := Ideal) .f32 s * h) = leaky (Ideal.ofBits .f32 s) h :=
  (select_oge _ Ideal.ofBits_zero_f32 h _ _).trans (leaky_of_le_test _ h)

end Idealize.ShloMosaic.PlainRows

end
-- ==== Proof.Payloads.lean ====
/-
  The kernel body's arithmetic, read one entry at a time at the ideal values.

  Each value the body stores is a pure term of the values it loaded. Read at an index:
  * the two initial stores are the zero splat;
  * the one-hot matrix at (b, j) is 1 when the word of b equals the segment word of row j of the block, else 0:
    a row iota compared for equality with the segment words laid along every row, the bit widened to a word
    (1 or 0) and that word converted to the real it denotes;
  * the accumulator update adds to the loaded accumulator the product of the one-hot matrix with the row block
    (the narrowing format changes are the identity on extended reals);
  * the count update adds the row sums of the one-hot matrix;
  * the last store is the two-layer map of the row (u p, mean p): the sums divided by the counts clamped below at
    one, joined to the globals, multiplied by the first weights, the first bias added, rectified, multiplied by the
    second weights, the second bias added.
-/
import proofs.«400438_j2714419331676_1_alg».proof.Proof.Gen.KernelIdeal.Skeleton
import proofs.«400438_j2714419331676_1_alg».proof.Proof.Spec
import proofs.«400438_j2714419331676_1_alg».proof.Proof.Concat
import proofs.«400438_j2714419331676_1_alg».proof.Proof.LibPlainRows
import Idealize.ShloMosaic.Lib.Pipeline.Value
import Idealize.ShloMosaic.Lib.ValueIdx
import Idealize.ShloMosaic.PureOps.Ideal.Laws
import Idealize.ShloMosaic.Lib.IdealHost

noncomputable section

namespace Cert.SegMeanMlp.Kernel

open Cert.KernelIdeal Cert.KernelIdeal.Gen Cert.SegMeanMlp Idealize.ShloMosaic Idealize.ShloMosaic.ValueIdx
open scoped BigOperators

/-! ## The zero splats -/

/-- The first initial store: zero everywhere. -/
theorem pay1_apply (i : S1024x128.Idx) : k0_pay1 (F := Ideal) i = 0 := by
  unfold k0_pay1
  rw [shapeCast_self]
  exact Ideal.ofBits_zero_f32

/-- The second initial store: zero everywhere. -/
theorem pay2_apply (i : S1024x1.Idx) : k0_pay2 (F := Ideal) i = 0 := by
  unfold k0_pay2
  rw [shapeCast_self]
  exact Ideal.ofBits_zero_f32

/-! ## The one-hot matrix -/

/-- The segment words laid along every row, read at (b, j): the word of row j. -/
theorem segRow_apply (v6 : Vec Ideal S1x2048 .i32) (b : Fin 1024) (j : Fin 2048) :
    broadcastTo S1024x2048 (shapeCast S1x2048 v6 shapeCasts_S1x2048_S1x2048) broadcasts_S1x2048_S1024x2048 (ix2 b j)
      = v6 (ix2 (0 : Fin 1) j) := by
  rw [shapeCast_self]
  refine broadcastTo_apply v6 broadcasts_S1x2048_S1024x2048 (ix2 b j) (ix2 (0 : Fin 1) j) ?_
  intro a
  match a with
  | ⟨0, _⟩ => rfl
  | ⟨1, _⟩ => rfl

/-- The equality bit of two words, widened and converted: one when they are equal, zero otherwise. -/
theorem eqBit_real (x y : BitVec 32) :
    ((((IntOp.cmpi .eq x y).setWidth 32).toInt : ℝ) : EReal) = if x = y then 1 else 0 := by
  by_cases h : x = y
  · subst h
    rw [if_pos rfl]
    have hb : (x == x) = true := beq_self_eq_true x
    have e : (IntOp.cmpi .eq x x).setWidth 32 = 1#32 := by
      show (BitVec.ofBool (x == x)).setWidth 32 = 1#32
      rw [hb]
      rfl
    rw [e]
    norm_num
  · rw [if_neg h]
    have hb : (x == y) = false := beq_eq_false_iff_ne.mpr h
    have e : (IntOp.cmpi .eq x y).setWidth 32 = 0#32 := by
      show (BitVec.ofBool (x == y)).setWidth 32 = 0#32
      rw [hb]
      rfl
    rw [e]
    norm_num

/-- The one-hot matrix at (b, j). -/
theorem pay3_apply (v6 : Vec Ideal S1x2048 .i32) (b : Fin 1024) (j : Fin 2048) :
    k0_pay3 (F := Ideal) v6 (ix2 b j) = hot b.val (v6 (ix2 (0 : Fin 1) j)) := by
  unfold k0_pay3 hot
  rw [sitofp_apply, extui_apply]
  show ((((IntOp.cmpi .eq (iota .tc S1024x2048 32 [0] iota_S1024x2048_d0_w32 (ix2 b j))
    (broadcastTo S1024x2048 (shapeCast S1x2048 v6 shapeCasts_S1x2048_S1x2048) broadcasts_S1x2048_S1024x2048 (ix2 b j))).setWidth 32).toInt : ℝ) : EReal) = _
  rw [segRow_apply, iota_single_apply, eqBit_real]

/-! ## The accumulator and count updates -/

/-- The accumulator update at (b, d): the loaded accumulator plus the one-hot row of b times column d of the block. -/
theorem pay4_apply (v3 : Vec Ideal S2048x128 .f32) (v6 : Vec Ideal S1x2048 .i32) (v14 : Vec Ideal S1024x128 .f32)
    (b : Fin 1024) (d : Fin 128) :
    k0_pay4 (F := Ideal) v3 v6 v14 (ix2 b d)
      = v14 (ix2 b d) + ∑ j : Fin 2048, hot b.val (v6 (ix2 (0 : Fin 1) j)) * v3 (ix2 j d) := by
  unfold k0_pay4
  rw [shapeCast_self, shapeCast_self, addf_apply]
  rw [PlainRows.matmul_zero_rows_apply dot_S1024x2048_S2048x128_S1024x128_1_0_0_1_n_n rfl none _ _ b d]
  refine congrArg (fun t => v14 (ix2 b d) + t) ?_
  refine Fintype.sum_congr _ _ fun j => ?_
  rw [truncf_apply, truncf_apply, pay3_apply]

/-- The source index of a row sum: result row b with column k put back. -/
theorem rowLift (b : Fin 1024) (k : Fin 2048) :
    reduces_S1024x2048_S1024.lift (ix1 b) k = ix2 b k := by
  funext a
  match a with
  | ⟨0, _⟩ => rfl
  | ⟨1, _⟩ => rfl

/-- A sum along the rows of a [1024, 2048] array, read at row b: the sum over the columns. -/
theorem rowSum_apply (src : FVec Ideal S1024x2048 .f32) (hφ : FKind.Formats .f32)
    (hacc : (0x00000000#32 : BitVec 32) = 0x00000000#32) (b : Fin 1024) :
    multiReduction .add [1] S1024 src 0x00000000#32 reduces_S1024x2048_S1024 hφ hacc (ix1 b)
      = ∑ k : Fin 2048, src (ix2 b k) := by
  refine (Ideal.multiReduction_add_single src 0x00000000#32 reduces_S1024x2048_S1024 hφ hacc (ix1 b)).trans ?_
  exact Fintype.sum_congr _ _ fun k => congrArg src (rowLift b k)

/-- The count update at (b, 0): the loaded count plus the sum of the one-hot row of b. -/
theorem pay5_apply (v6 : Vec Ideal S1x2048 .i32) (v20 : Vec Ideal S1024x1 .f32) (b : Fin 1024) :
    k0_pay5 (F := Ideal) v6 v20 (ix2 b (0 : Fin 1))
      = v20 (ix2 b (0 : Fin 1)) + ∑ j : Fin 2048, hot b.val (v6 (ix2 (0 : Fin 1) j)) := by
  unfold k0_pay5
  rw [shapeCast_self, addf_apply]
  rw [shapeCast_apply _ shapeCasts_S1024_S1024x1 (ix2 b (0 : Fin 1)) (ix1 b) (by
    rw [Shape.rowMajor_val_two, Shape.rowMajor_val_one]; show b.val = b.val * 1 + 0; omega)]
  rw [rowSum_apply]
  refine congrArg (fun t => v20 (ix2 b (0 : Fin 1)) + t) ?_
  exact Fintype.sum_congr _ _ fun j => pay3_apply v6 b j

/-! ## The last store: the two layers of the joined row -/

/-- A one-row array viewed as itself and laid along m rows, read at (p, q): the row's entry q. -/
theorem oneRow_apply {α : Type} {m n : Nat} (x : (⟨2, ![1, n]⟩ : Shape).Idx → α)
    (hc : (⟨2, ![1, n]⟩ : Shape).ShapeCasts ⟨2, ![1, n]⟩) (hb : (⟨2, ![1, n]⟩ : Shape).Broadcasts ⟨2, ![m, n]⟩)
    (p : Fin m) (q : Fin n) :
    broadcastTo ⟨2, ![m, n]⟩ (shapeCast ⟨2, ![1, n]⟩ x hc) hb (ix2 p q) = x (ix2 (0 : Fin 1) q) := by
  rw [shapeCast_self]
  refine broadcastTo_apply x hb (ix2 p q) (ix2 (0 : Fin 1) q) ?_
  intro a
  match a with
  | ⟨0, _⟩ => rfl
  | ⟨1, _⟩ =>
    show q.val = if n = 1 then 0 else q.val
    split
    · have := q.isLt; omega
    · rfl

/-- A column of 1024 entries laid along 128 columns, read at (p, d): the column's entry p. -/
theorem oneCol_apply {α : Type} (x : S1024x1.Idx → α) (p : Fin 1024) (d : Fin 128) :
    broadcastTo S1024x128 x broadcasts_S1024x1_S1024x128 (ix2 p d) = x (ix2 p (0 : Fin 1)) := by
  refine broadcastTo_apply x broadcasts_S1024x1_S1024x128 (ix2 p d) (ix2 p (0 : Fin 1)) ?_
  intro a
  match a with
  | ⟨0, _⟩ => rfl
  | ⟨1, _⟩ => rfl

/-- The clamped division at (p, d): the segment's mean. -/
theorem mean_apply (v31 : FVec Ideal S1024x128 .f32) (v32 : FVec Ideal S1024x1 .f32) (p : Fin 1024) (d : Fin 128) :
    divf v31 (broadcastTo S1024x128 (maximumf v32 (broadcast S1024x1 (Scalar.ofBits (F := Ideal) .f32 0x3F800000#32)))
        broadcasts_S1024x1_S1024x128) (ix2 p d)
      = mean (fun b d => v31 (ix2 b d)) (fun b => v32 (ix2 b (0 : Fin 1))) p d := by
  rw [divf_apply, oneCol_apply, maximumf_apply, broadcast_apply]
  rfl

/-- One affine layer at (p, q): the row p of the left operand times column q of the weights, plus the bias at q. -/
theorem layer_apply {m k n : Nat} (D : DotDims ⟨2, ![m, k]⟩ ⟨2, ![k, n]⟩ ⟨2, ![m, n]⟩) (hD : D = DotDims.plain m k n)
    (X : FVec Ideal ⟨2, ![m, k]⟩ .f32) (W : FVec Ideal ⟨2, ![k, n]⟩ .f32) (bias : FVec Ideal ⟨2, ![1, n]⟩ .f32)
    (hX : FTy.bits .bf16 < FTy.bits .f32)
    (hc : (⟨2, ![1, n]⟩ : Shape).ShapeCasts ⟨2, ![1, n]⟩) (hb : (⟨2, ![1, n]⟩ : Shape).Broadcasts ⟨2, ![m, n]⟩)
    (p : Fin m) (q : Fin n) :
    addf (matmul D none (truncf .bf16 X hX) (truncf .bf16 W hX) (constant (F := Ideal) ⟨2, ![m, n]⟩ .f32 0x00000000#32))
        (broadcastTo ⟨2, ![m, n]⟩ (shapeCast ⟨2, ![1, n]⟩ bias hc) hb) (ix2 p q)
      = (∑ c : Fin k, X (ix2 p c) * W (ix2 c q)) + bias (ix2 (0 : Fin 1) q) := by
  rw [addf_apply, oneRow_apply, PlainRows.matmul_zero_rows_apply D hD none _ _ p q]
  rfl

/-- The last store at (p, q): the second layer of the rectified first layer of the row (u p, mean p). -/
theorem pay6_apply (v31 : Vec Ideal S1024x128 .f32) (v32 : Vec Ideal S1024x1 .f32) (v37 : Vec Ideal S1024x128 .f32)
    (v40 : Vec Ideal S256x512 .f32) (v43 : Vec Ideal S1x512 .f32) (v50 : Vec Ideal S512x128 .f32)
    (v53 : Vec Ideal S1x128 .f32) (p : Fin 1024) (q : Fin 128) :
    k0_pay6 (F := Ideal) v31 v32 v37 v40 v43 v50 v53 (ix2 p q)
      = out (catRows (fun p c => v37 (ix2 p c)) (mean (fun b d => v31 (ix2 b d)) (fun b => v32 (ix2 b (0 : Fin 1)))))
          (fun c k => v40 (ix2 c k)) (fun k => v43 (ix2 (0 : Fin 1) k)) (fun k q => v50 (ix2 k q))
          (fun q => v53 (ix2 (0 : Fin 1) q)) p q := by
  unfold k0_pay6
  rw [layer_apply dot_S1024x512_S512x128_S1024x128_1_0_0_1_n_n rfl _ v50 v53 _ _ _ p q]
  unfold out
  refine congrArg (fun t => t + v53 (ix2 (0 : Fin 1) q)) ?_
  refine Fintype.sum_congr _ _ fun k => ?_
  refine congrArg (fun t => t * v50 (ix2 k q)) ?_
  rw [maximumf_apply, broadcast_apply,
    layer_apply dot_S1024x256_S256x512_S1024x512_1_0_0_1_n_n rfl _ v40 v43 _ _ _ p k]
  unfold hidden
  refine congrArg (fun t => max (t + v43 (ix2 (0 : Fin 1) k)) (Ideal.ofBits .f32 0x00000000#32)) ?_
  refine Fintype.sum_congr _ _ fun c => ?_
  refine congrArg (fun t => t * v40 (ix2 c k)) ?_
  rw [concat_cols_apply]
  unfold catRows
  split
  · rfl
  · exact mean_apply v31 v32 p _

end Cert.SegMeanMlp.Kernel

end
-- ==== Proof.Blocks.lean ====
/-
  What each window's block is, as a piece of the array the call finds.

  The grid has 489 points. At point t the first window holds rows t·2048 … t·2048 + 2047 of the padded feature array
  [1001472, 128], the second the same stretch of the padded segment words [1, 1001472]; the other five windows hold
  their whole arrays at every point. Each statement reads a block at a local index as the array at the global one:
  a block's coordinate on an axis is the block index times the block size plus the local coordinate.
-/
import proofs.«400438_j2714419331676_1_alg».proof.Proof.Gen.KernelIdeal.Frame
import Idealize.ShloMosaic.Lib.Pipeline.Value
import Idealize.ShloMosaic.Lib.ValueIdx

set_option maxRecDepth 16384

noncomputable section

namespace Cert.SegMeanMlp.Blocks

open Cert.KernelIdeal Cert.KernelIdeal.Gen
open Idealize.ShloMosaic Idealize.ShloMosaic.TcCoe Idealize.ShloMosaic.ValueIdx Idealize.SL.Sem

variable {F : FTy → Type} [FloatOps F]
variable (m : (ℓ : Loc nD τ sig) → Buf (Elt F) ℓ)

/-- The block index of the feature window is (t, 0) … -/
theorem idx0 : ∀ t : Fin cfg0.N, win0_0.index t 0 = t.val ∧ win0_0.index t 1 = 0 :=
  (by decide +kernel : ∀ t : Fin grid0.N, win0_0.index t 0 = t.val ∧ win0_0.index t 1 = 0)

/-- … and of the segment-word window (0, t). -/
theorem idx1 : ∀ t : Fin cfg0.N, win0_1.index t 0 = 0 ∧ win0_1.index t 1 = t.val :=
  (by decide +kernel : ∀ t : Fin grid0.N, win0_1.index t 0 = 0 ∧ win0_1.index t 1 = t.val)

/-- Row j of tile t is row t·2048 + j of the padded arrays. -/
theorem tile_lt (t : Fin cfg0.N) (j : Fin 2048) : t.val * 2048 + j.val < 1001472 := by
  have h1 := t.isLt
  have h2 : cfg0.N = 489 := N_0
  have h3 := j.isLt
  omega

/-- The feature block at point t, read at (j, d). -/
theorem xblk_apply (c : Dev nD) (t : Fin cfg0.N) (j : Fin 2048) (d : Fin 128) :
    (iblk m c 0 t : Vec F S2048x128 .f32) (ix2 j d)
      = (V m c main_v0 : S1001472x128.Idx → Elt F .f32) (ix2 ⟨t.val * 2048 + j.val, tile_lt t j⟩ d) := by
  unfold iblk
  rw [View.read_apply]
  show V m c main_v0 _ = V m c main_v0 _
  congr 1
  funext a
  apply Fin.ext
  match a with
  | ⟨0, _⟩ => show win0_0.index t 0 * 2048 + 1 * j.val = t.val * 2048 + j.val; rw [(idx0 t).1]; omega
  | ⟨1, _⟩ => show win0_0.index t 1 * 128 + 1 * d.val = d.val; rw [(idx0 t).2]; omega

/-- The segment-word block at point t, read at (0, j). -/
theorem sblk_apply (c : Dev nD) (t : Fin cfg0.N) (j : Fin 2048) :
    (iblk m c 1 t : Vec F S1x2048 .i32) (ix2 (0 : Fin 1) j)
      = (V m c main_v2 : S1x1001472.Idx → Elt F .i32) (ix2 (0 : Fin 1) ⟨t.val * 2048 + j.val, tile_lt t j⟩) := by
  unfold iblk
  rw [View.read_apply]
  show V m c main_v2 _ = V m c main_v2 _
  congr 1
  funext a
  apply Fin.ext
  match a with
  | ⟨0, _⟩ => show win0_1.index t 0 * 1 + 1 * 0 = 0; rw [(idx1 t).1]
  | ⟨1, _⟩ => show win0_1.index t 1 * 2048 + 1 * j.val = t.val * 2048 + j.val; rw [(idx1 t).2]; omega

theorem idx2 : ∀ t : Fin cfg0.N, win0_2.index t 0 = 0 ∧ win0_2.index t 1 = 0 :=
  (by decide +kernel : ∀ t : Fin grid0.N, win0_2.index t 0 = 0 ∧ win0_2.index t 1 = 0)

/-- The window of the globals is the whole array at every point. -/
theorem blk2_eq (c : Dev nD) (t : Fin cfg0.N) :
    (iblk m c 2 t : Vec F S1024x128 .f32) = (V m c main_arg3 : S1024x128.Idx → Elt F .f32) := by
  funext y
  unfold iblk
  rw [View.read_apply]
  show V m c main_arg3 _ = V m c main_arg3 y
  congr 1
  funext a
  apply Fin.ext
  match a with
  | ⟨0, _⟩ => show win0_2.index t 0 * 1024 + 1 * (y 0).val = (y 0).val; rw [(idx2 t).1]; omega
  | ⟨1, _⟩ => show win0_2.index t 1 * 128 + 1 * (y 1).val = (y 1).val; rw [(idx2 t).2]; omega

theorem idx3 : ∀ t : Fin cfg0.N, win0_3.index t 0 = 0 ∧ win0_3.index t 1 = 0 :=
  (by decide +kernel : ∀ t : Fin grid0.N, win0_3.index t 0 = 0 ∧ win0_3.index t 1 = 0)

/-- The window of the first weights is the whole array at every point. -/
theorem blk3_eq (c : Dev nD) (t : Fin cfg0.N) :
    (iblk m c 3 t : Vec F S256x512 .f32) = (V m c main_arg5 : S256x512.Idx → Elt F .f32) := by
  funext y
  unfold iblk
  rw [View.read_apply]
  show V m c main_arg5 _ = V m c main_arg5 y
  congr 1
  funext a
  apply Fin.ext
  match a with
  | ⟨0, _⟩ => show win0_3.index t 0 * 256 + 1 * (y 0).val = (y 0).val; rw [(idx3 t).1]; omega
  | ⟨1, _⟩ => show win0_3.index t 1 * 512 + 1 * (y 1).val = (y 1).val; rw [(idx3 t).2]; omega

theorem idx4 : ∀ t : Fin cfg0.N, win0_4.index t 0 = 0 ∧ win0_4.index t 1 = 0 :=
  (by decide +kernel : ∀ t : Fin grid0.N, win0_4.index t 0 = 0 ∧ win0_4.index t 1 = 0)

/-- The window of the first bias row is the whole array at every point. -/
theorem blk4_eq (c : Dev nD) (t : Fin cfg0.N) :
    (iblk m c 4 t : Vec F S1x512 .f32) = (V m c main_v3 : S1x512.Idx → Elt F .f32) := by
  funext y
  unfold iblk
  rw [View.read_apply]
  show V m c main_v3 _ = V m c main_v3 y
  congr 1
  funext a
  apply Fin.ext
  match a with
  | ⟨0, _⟩ => show win0_4.index t 0 * 1 + 1 * (y 0).val = (y 0).val; rw [(idx4 t).1]; omega
  | ⟨1, _⟩ => show win0_4.index t 1 * 512 + 1 * (y 1).val = (y 1).val; rw [(idx4 t).2]; omega

theorem idx5 : ∀ t : Fin cfg0.N, win0_5.index t 0 = 0 ∧ win0_5.index t 1 = 0 :=
  (by decide +kernel : ∀ t : Fin grid0.N, win0_5.index t 0 = 0 ∧ win0_5.index t 1 = 0)

/-- The window of the second weights is the whole array at every point. -/
theorem blk5_eq (c : Dev nD) (t : Fin cfg0.N) :
    (iblk m c 5 t : Vec F S512x128 .f32) = (V m c main_arg7 : S512x128.Idx → Elt F .f32) := by
  funext y
  unfold iblk
  rw [View.read_apply]
  show V m c main_arg7 _ = V m c main_arg7 y
  congr 1
  funext a
  apply Fin.ext
  match a with
  | ⟨0, _⟩ => show win0_5.index t 0 * 512 + 1 * (y 0).val = (y 0).val; rw [(idx5 t).1]; omega
  | ⟨1, _⟩ => show win0_5.index t 1 * 128 + 1 * (y 1).val = (y 1).val; rw [(idx5 t).2]; omega

theorem idx6 : ∀ t : Fin cfg0.N, win0_6.index t 0 = 0 ∧ win0_6.index t 1 = 0 :=
  (by decide +kernel : ∀ t : Fin grid0.N, win0_6.index t 0 = 0 ∧ win0_6.index t 1 = 0)

/-- The window of the second bias row is the whole array at every point. -/
theorem blk6_eq (c : Dev nD) (t : Fin cfg0.N) :
    (iblk m c 6 t : Vec F S1x128 .f32) = (V m c main_v4 : S1x128.Idx → Elt F .f32) := by
  funext y
  unfold iblk
  rw [View.read_apply]
  show V m c main_v4 _ = V m c main_v4 y
  congr 1
  funext a
  apply Fin.ext
  match a with
  | ⟨0, _⟩ => show win0_6.index t 0 * 1 + 1 * (y 0).val = (y 0).val; rw [(idx6 t).1]; omega
  | ⟨1, _⟩ => show win0_6.index t 1 * 128 + 1 * (y 1).val = (y 1).val; rw [(idx6 t).2]; omega

end Cert.SegMeanMlp.Blocks

end
-- ==== Proof.Entry.lean ====
/-
  What the call finds in the arrays the program prepares for it.

  Before the call the program pads the feature array from 1000000 to 1001472 rows with the value 0, pads the segment
  words to 1001472 entries with the word −1 and views them as one row, and views each bias vector as one row.
  Read at an index: a row below 1000000 of a padded array is the argument's row; a segment word at or past
  1000000 is −1 (no segment number, so such a row is never counted); a bias row's entry k is the vector's entry k.
-/
import proofs.«400438_j2714419331676_1_alg».proof.Proof.Gen.KernelIdeal.Frame
import Idealize.ShloMosaic.Lib.KernelVsHost
import Idealize.ShloMosaic.Lib.Pipeline.Value
import Idealize.ShloMosaic.Lib.ValueIdx
import Idealize.ShloMosaic.Lib.StableHlo.Run

set_option maxRecDepth 16384

noncomputable section

namespace Cert.SegMeanMlp.Entry

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ)

/-- The padded feature array. -/
theorem feat_eq (c : Dev nD) : (V m c main_v0 : S1001472x128.Idx → EReal) =
    pad S1001472x128 ![0, 0] ![1472, 0] ![0, 0] (m ((c : Thread nD τ).loc main_arg0))
      (sitofp (F := Ideal) .f32 (constantI S_ 32 0#32)) pads_S1000000x128_S1001472x128_014720_000 h_S_ := by
  dsimp only [V]
  simp only [hostOps0, hostOps0_1, hostOps0_2, hostOps0_3, hostOps0_4, List.flatten_cons, List.flatten_nil, List.append_nil, List.cons_append, List.nil_append]
  after_results
  show pad (s := S1000000x128) S1001472x128 ![0, 0] ![1472, 0] ![0, 0] _ _ pads_S1000000x128_S1001472x128_014720_000 h_S_ = _
  congr 1

/-- The segment words as one row are the row view of the padded vector … -/
theorem segw_stage (c : Dev nD) : (V m c main_v2 : S1x1001472.Idx → BitVec 32) =
    shapeCast S1x1001472 (V m c main_v1 : S1001472.Idx → BitVec 32) shapeCasts_S1001472_S1x1001472 := by
  dsimp only [V]
  simp only [hostOps0, hostOps0_1, hostOps0_2, hostOps0_3, hostOps0_4, List.flatten_cons, List.flatten_nil, List.append_nil, List.cons_append, List.nil_append]
  after_results
  rfl

/-- … and the padded vector is the argument's words followed by 1472 copies of the word −1. -/
theorem segv_eq (c : Dev nD) : (V m c main_v1 : S1001472.Idx → BitVec 32) =
    pad S1001472 ![0] ![1472] ![0] (m ((c : Thread nD τ).loc main_arg4))
      (constantI S_ 32 4294967295#32) pads_S1000000_S1001472_014720 h_S_ := by
  dsimp only [V]
  simp only [hostOps0, hostOps0_1, hostOps0_2, hostOps0_3, hostOps0_4, List.flatten_cons, List.flatten_nil, List.append_nil, List.cons_append, List.nil_append]
  after_results
  show pad (s := S1000000) S1001472 ![0] ![1472] ![0] _ _ pads_S1000000_S1001472_014720 h_S_ = _
  congr 1

/-- The first bias as one row. -/
theorem bias1_eq (c : Dev nD) : (V m c main_v3 : S1x512.Idx → EReal) =
    shapeCast S1x512 (m ((c : Thread nD τ).loc main_arg6)) shapeCasts_S512_S1x512 := by
  dsimp only [V]
  simp only [hostOps0, hostOps0_1, hostOps0_2, hostOps0_3, hostOps0_4, List.flatten_cons, List.flatten_nil, List.append_nil, List.cons_append, List.nil_append]
  after_results
  rfl

/-- The second bias as one row. -/
theorem bias2_eq (c : Dev nD) : (V m c main_v4 : S1x128.Idx → EReal) =
    shapeCast S1x128 (m ((c : Thread nD τ).loc main_arg8)) shapeCasts_S128_S1x128 := by
  dsimp only [V]
  simp only [hostOps0, hostOps0_1, hostOps0_2, hostOps0_3, hostOps0_4, List.flatten_cons, List.flatten_nil, List.append_nil, List.cons_append, List.nil_append]
  after_results
  rfl

/-- A row of the padded feature array below 1000000 is the argument's row. -/
theorem feat_inside (c : Dev nD) (n : Fin 1001472) (h : n.val < 1000000) (d : Fin 128) :
    (V m c main_v0 : S1001472x128.Idx → EReal) (ix2 n d)
      = m ((c : Thread nD τ).loc main_arg0) (ix2 (⟨n.val, h⟩ : Fin 1000000) d) := by
  rw [feat_eq]
  refine pad_apply_of_inside _ _ _ _ _ pads_S1000000x128_S1001472x128_014720_000 h_S_ (ix2 n d)
    (ix2 (⟨n.val, h⟩ : Fin 1000000) d) ?_
  intro a
  match a with
  | ⟨0, _⟩ => show n.val = 0 + n.val * (0 + 1); omega
  | ⟨1, _⟩ => show d.val = 0 + d.val * (0 + 1); omega

/-- Entry n of the one-row view is entry n of the padded vector. -/
theorem segw_row (c : Dev nD) (n : Fin 1001472) :
    (V m c main_v2 : S1x1001472.Idx → BitVec 32) (ix2 (0 : Fin 1) n)
      = pad S1001472 ![0] ![1472] ![0] (m ((c : Thread nD τ).loc main_arg4))
          (constantI S_ 32 4294967295#32) pads_S1000000_S1001472_014720 h_S_ (ix1 n) := by
  rw [segw_stage]
  refine (shapeCast_apply _ shapeCasts_S1001472_S1x1001472 (ix2 (0 : Fin 1) n) (ix1 n) ?_).trans ?_
  · rw [Shape.rowMajor_val_two, Shape.rowMajor_val_one]
    show n.val = 0 * 1001472 + n.val
    omega
  · rw [segv_eq]

/-- A segment word below 1000000 is the argument's word. -/
theorem segw_inside (c : Dev nD) (n : Fin 1001472) (h : n.val < 1000000) :
    (V m c main_v2 : S1x1001472.Idx → BitVec 32) (ix2 (0 : Fin 1) n)
      = m ((c : Thread nD τ).loc main_arg4) (ix1 (⟨n.val, h⟩ : Fin 1000000)) := by
  rw [segw_row]
  refine pad_apply_of_inside _ _ _ _ _ pads_S1000000_S1001472_014720 h_S_ (ix1 n) (ix1 (⟨n.val, h⟩ : Fin 1000000)) ?_
  intro a
  match a with
  | ⟨0, _⟩ => show n.val = 0 + n.val * (0 + 1); omega

/-- A segment word at or past 1000000 is the padding word, which reads −1. -/
theorem segw_pad (c : Dev nD) (n : Fin 1001472) (h : 1000000 ≤ n.val) :
    ((V m c main_v2 : S1x1001472.Idx → BitVec 32) (ix2 (0 : Fin 1) n)).toInt = -1 := by
  rw [segw_row]
  rw [pad_apply_of_not_inside _ _ _ _ _ pads_S1000000_S1001472_014720 h_S_ (ix1 n) (0 : Fin 1) (by
    intro hin
    have h3 : (n.val - 0) / (0 + 1) < 1000000 := hin.2.2
    simp only [Nat.sub_zero, Nat.zero_add, Nat.div_one] at h3
    omega)]
  decide

/-- Entry k of the first bias row. -/
theorem bias1_apply (c : Dev nD) (k : Fin 512) :
    (V m c main_v3 : S1x512.Idx → EReal) (ix2 (0 : Fin 1) k) = m ((c : Thread nD τ).loc main_arg6) (ix1 k) := by
  rw [bias1_eq]
  refine shapeCast_apply _ shapeCasts_S512_S1x512 (ix2 (0 : Fin 1) k) (ix1 k) ?_
  rw [Shape.rowMajor_val_two, Shape.rowMajor_val_one]
  show k.val = 0 * 512 + k.val
  omega

/-- Entry q of the second bias row. -/
theorem bias2_apply (c : Dev nD) (q : Fin 128) :
    (V m c main_v4 : S1x128.Idx → EReal) (ix2 (0 : Fin 1) q) = m ((c : Thread nD τ).loc main_arg8) (ix1 q) := by
  rw [bias2_eq]
  refine shapeCast_apply _ shapeCasts_S128_S1x128 (ix2 (0 : Fin 1) q) (ix1 q) ?_
  rw [Shape.rowMajor_val_two, Shape.rowMajor_val_one]
  show q.val = 0 * 128 + q.val
  omega

end Cert.SegMeanMlp.Entry

end
-- ==== Proof.Accum.lean ====
/-
  The running totals over the grid, and the output block of the last point.

  Tile a (a = 0 … 488) holds rows a·2048 … a·2048 + 2047 of the padded arrays. Its contribution to the feature sum of
  segment b at feature d is Σ_j hot(b, seg(a·2048 + j)) · x(a·2048 + j, d), and to the count Σ_j hot(b, seg(a·2048 + j)).
  * Each grid point adds its tile's contribution to what the point before left; the first point starts from zero. So
    after point n the totals are the sums of the contributions of tiles 0 … n (induction on n).
  * The 489 tiles of 2048 rows are the 1001472 padded rows, so the sum over all tiles is one sum over the padded rows,
    which the one-hot law of the specification turns into the segment sum (count) over the 1000000 argument rows.
  * The last point computes the output block from the totals after its own update: the specification's function.
-/
import proofs.«400438_j2714419331676_1_alg».proof.Proof.Gen.KernelIdeal.Frame
import proofs.«400438_j2714419331676_1_alg».proof.Proof.CaseValues
import proofs.«400438_j2714419331676_1_alg».proof.Proof.Payloads
import proofs.«400438_j2714419331676_1_alg».proof.Proof.Blocks
import proofs.«400438_j2714419331676_1_alg».proof.Proof.Entry
import proofs.«400438_j2714419331676_1_alg».proof.Proof.Spec
import proofs.«400438_j2714419331676_1_alg».proof.Proof.LibSegmentSum

set_option maxRecDepth 16384

noncomputable section

namespace Cert.SegMeanMlp.Kernel

open Cert.KernelIdeal Cert.KernelIdeal.Gen Cert.SegMeanMlp
open Idealize.ShloMosaic Idealize.ShloMosaic.TcCoe Idealize.ShloMosaic.ValueIdx Idealize.SL.Sem
open scoped BigOperators

variable (m : (ℓ : Loc nD τ sig) → Buf (Elt Ideal) ℓ)

/-- Row n of the padded feature array, feature d. -/
abbrev featP (c : Dev nD) (n : Fin 1001472) (d : Fin 128) : EReal :=
  (V m c main_v0 : S1001472x128.Idx → EReal) (ix2 n d)

/-- Segment word n of the padded words. -/
abbrev segP (c : Dev nD) (n : Fin 1001472) : BitVec 32 :=
  (V m c main_v2 : S1x1001472.Idx → BitVec 32) (ix2 (0 : Fin 1) n)

theorem tile_lt' {a : ℕ} (h : a < 489) (j : Fin 2048) : a * 2048 + j.val < 1001472 := by
  have := j.isLt; omega

/-- Tile a's contribution to the feature sum of segment b at feature d (zero past the last tile). -/
def tileSum (c : Dev nD) (b : Fin 1024) (d : Fin 128) (a : ℕ) : EReal :=
  if h : a < 489 then ∑ j : Fin 2048, hot b.val (segP m c ⟨a * 2048 + j.val, tile_lt' h j⟩) * featP m c ⟨a * 2048 + j.val, tile_lt' h j⟩ d
  else 0

/-- Tile a's contribution to the count of segment b. -/
def tileCnt (c : Dev nD) (b : Fin 1024) (a : ℕ) : EReal :=
  if h : a < 489 then ∑ j : Fin 2048, hot b.val (segP m c ⟨a * 2048 + j.val, tile_lt' h j⟩) else 0

/-- The blocks of the two streamed windows at point t, at their literal types. -/
abbrev xblk (c : Dev nD) (t : Fin cfg0.N) : Vec Ideal S2048x128 .f32 := iblk m c 0 t
abbrev sblk (c : Dev nD) (t : Fin cfg0.N) : Vec Ideal S1x2048 .i32 := iblk m c 1 t

/-- The feature-sum update at point t adds tile t's contribution. -/
theorem upd_sums (c : Dev nD) (t : Fin cfg0.N) (acc : Vec Ideal S1024x128 .f32) (b : Fin 1024) (d : Fin 128) :
    k0_pay4 (F := Ideal) (xblk m c t) (sblk m c t) acc (ix2 b d) = acc (ix2 b d) + tileSum m c b d t.val := by
  rw [pay4_apply]
  refine congrArg (fun z => acc (ix2 b d) + z) ?_
  unfold tileSum
  rw [dif_pos (lt_of_lt_of_eq t.isLt N_0)]
  refine Fintype.sum_congr _ _ fun j => ?_
  exact congrArg₂ (fun u v => hot b.val u * v) (Blocks.sblk_apply m c t j) (Blocks.xblk_apply m c t j d)

/-- The count update at point t adds tile t's contribution. -/
theorem upd_cnts (c : Dev nD) (t : Fin cfg0.N) (acc : Vec Ideal S1024x1 .f32) (b : Fin 1024) :
    k0_pay5 (F := Ideal) (sblk m c t) acc (ix2 b (0 : Fin 1)) = acc (ix2 b (0 : Fin 1)) + tileCnt m c b t.val := by
  rw [pay5_apply]
  refine congrArg (fun z => acc (ix2 b (0 : Fin 1)) + z) ?_
  unfold tileCnt
  rw [dif_pos (lt_of_lt_of_eq t.isLt N_0)]
  refine Fintype.sum_congr _ _ fun j => ?_
  exact congrArg (hot b.val) (Blocks.sblk_apply m c t j)

/-- After point n the two totals are the sums of the contributions of tiles 0 … n. -/
theorem totals (c : Dev nD) : ∀ (n : ℕ) (h : n < cfg0.N),
    (∀ (b : Fin 1024) (d : Fin 128), (outsAt0 m c n h).2.1 (ix2 b d) = ∑ a ∈ Finset.range (n + 1), tileSum m c b d a)
    ∧ (∀ b : Fin 1024, (outsAt0 m c n h).2.2 (ix2 b (0 : Fin 1)) = ∑ a ∈ Finset.range (n + 1), tileCnt m c b a)
  | 0, h => by
    have h0 : (⟨0, h⟩ : Fin cfg0.N).val % 489 = 0 := rfl
    have h1 : ¬(⟨0, h⟩ : Fin cfg0.N).val % 489 = 488 := by show ¬(0 % 489 = 488); decide
    rw [outsAt0_A m c (⟨0, h⟩ : Fin cfg0.N) h0 h1]
    dsimp only
    refine ⟨fun b d => ?_, fun b => ?_⟩
    · refine (congrFun (Cases.sums_A (F := Ideal) c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) (ms0_5 (⟨0, h⟩ : Fin cfg0.N)) (hs0_5 (⟨0, h⟩ : Fin cfg0.N)) (ms0_6 (⟨0, h⟩ : Fin cfg0.N)) (hs0_6 (⟨0, h⟩ : Fin cfg0.N)) (ms0_7 (⟨0, h⟩ : Fin cfg0.N)) (hs0_7 (⟨0, h⟩ : Fin cfg0.N)) scM0_0 (Memref.isWhole_whole _) scM0_1 (Memref.isWhole_whole _) ((hcond0_0 (⟨0, h⟩ : Fin cfg0.N)).mpr h0) (fun hh => h1 ((hcond0_1 (⟨0, h⟩ : Fin cfg0.N)).mp hh)) (iblk m c 0 (⟨0, h⟩ : Fin cfg0.N)) (iblk m c 1 (⟨0, h⟩ : Fin cfg0.N)) (iblk m c 2 (⟨0, h⟩ : Fin cfg0.N)) (iblk m c 3 (⟨0, h⟩ : Fin cfg0.N)) (iblk m c 4 (⟨0, h⟩ : Fin cfg0.N)) (iblk m c 5 (⟨0, h⟩ : Fin cfg0.N)) (iblk m c 6 (⟨0, h⟩ : Fin cfg0.N))) (ix2 b d)).trans ?_
      refine (upd_sums m c (⟨0, h⟩ : Fin cfg0.N) (k0_pay1 (F := Ideal)) b d).trans ?_
      rw [pay1_apply, zero_add, Finset.sum_range_one]
    · refine (congrFun (Cases.cnts_A (F := Ideal) c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) (ms0_5 (⟨0, h⟩ : Fin cfg0.N)) (hs0_5 (⟨0, h⟩ : Fin cfg0.N)) (ms0_6 (⟨0, h⟩ : Fin cfg0.N)) (hs0_6 (⟨0, h⟩ : Fin cfg0.N)) (ms0_7 (⟨0, h⟩ : Fin cfg0.N)) (hs0_7 (⟨0, h⟩ : Fin cfg0.N)) scM0_0 (Memref.isWhole_whole _) scM0_1 (Memref.isWhole_whole _) ((hcond0_0 (⟨0, h⟩ : Fin cfg0.N)).mpr h0) (fun hh => h1 ((hcond0_1 (⟨0, h⟩ : Fin cfg0.N)).mp hh)) (iblk m c 0 (⟨0, h⟩ : Fin cfg0.N)) (iblk m c 1 (⟨0, h⟩ : Fin cfg0.N)) (iblk m c 2 (⟨0, h⟩ : Fin cfg0.N)) (iblk m c 3 (⟨0, h⟩ : Fin cfg0.N)) (iblk m c 4 (⟨0, h⟩ : Fin cfg0.N)) (iblk m c 5 (⟨0, h⟩ : Fin cfg0.N)) (iblk m c 6 (⟨0, h⟩ : Fin cfg0.N))) (ix2 b (0 : Fin 1))).trans ?_
      refine (upd_cnts m c (⟨0, h⟩ : Fin cfg0.N) (k0_pay2 (F := Ideal)) b).trans ?_
      rw [pay2_apply, zero_add, Finset.sum_range_one]
  | n + 1, h => by
    have hN : n + 1 < 489 := lt_of_lt_of_eq h N_0
    have h0 : ¬(⟨n + 1, h⟩ : Fin cfg0.N).val % 489 = 0 := by dsimp only; omega
    obtain ⟨ihs, ihc⟩ := totals c n (Nat.lt_of_succ_lt h)
    by_cases h1 : (⟨n + 1, h⟩ : Fin cfg0.N).val % 489 = 488
    ·
      rw [outsAt0_C m c (⟨n + 1, h⟩ : Fin cfg0.N) h0 h1]
      dsimp only
      refine ⟨fun b d => ?_, fun b => ?_⟩
      · refine (congrFun (Cases.sums_C (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) scM0_0 (Memref.isWhole_whole _) scM0_1 (Memref.isWhole_whole _) (fun hh => h0 ((hcond0_0 (⟨n + 1, h⟩ : Fin cfg0.N)).mp hh)) ((hcond0_1 (⟨n + 1, h⟩ : Fin cfg0.N)).mpr h1) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (iblk m c 4 (⟨n + 1, h⟩ : Fin cfg0.N)) (iblk m c 5 (⟨n + 1, h⟩ : Fin cfg0.N)) (iblk m c 6 (⟨n + 1, h⟩ : Fin cfg0.N)) (outsAt0 m c ((⟨n + 1, h⟩ : Fin cfg0.N).val - 1) (Nat.lt_of_le_of_lt (Nat.sub_le _ _) (⟨n + 1, h⟩ : Fin cfg0.N).isLt)).2.1 (outsAt0 m c ((⟨n + 1, h⟩ : Fin cfg0.N).val - 1) (Nat.lt_of_le_of_lt (Nat.sub_le _ _) (⟨n + 1, h⟩ : Fin cfg0.N).isLt)).2.2) (ix2 b d)).trans ?_
        refine (upd_sums m c (⟨n + 1, h⟩ : Fin cfg0.N) _ b d).trans ?_
        rw [Finset.sum_range_succ _ (n + 1)]
        exact congrArg (fun z => z + tileSum m c b d (n + 1)) (ihs b d)
      · refine (congrFun (Cases.cnts_C (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) scM0_0 (Memref.isWhole_whole _) scM0_1 (Memref.isWhole_whole _) (fun hh => h0 ((hcond0_0 (⟨n + 1, h⟩ : Fin cfg0.N)).mp hh)) ((hcond0_1 (⟨n + 1, h⟩ : Fin cfg0.N)).mpr h1) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (iblk m c 4 (⟨n + 1, h⟩ : Fin cfg0.N)) (iblk m c 5 (⟨n + 1, h⟩ : Fin cfg0.N)) (iblk m c 6 (⟨n + 1, h⟩ : Fin cfg0.N)) (outsAt0 m c ((⟨n + 1, h⟩ : Fin cfg0.N).val - 1) (Nat.lt_of_le_of_lt (Nat.sub_le _ _) (⟨n + 1, h⟩ : Fin cfg0.N).isLt)).2.1 (outsAt0 m c ((⟨n + 1, h⟩ : Fin cfg0.N).val - 1) (Nat.lt_of_le_of_lt (Nat.sub_le _ _) (⟨n + 1, h⟩ : Fin cfg0.N).isLt)).2.2) (ix2 b (0 : Fin 1))).trans ?_
        refine (upd_cnts m c (⟨n + 1, h⟩ : Fin cfg0.N) _ b).trans ?_
        rw [Finset.sum_range_succ _ (n + 1)]
        exact congrArg (fun z => z + tileCnt m c b (n + 1)) (ihc b)
    ·
      rw [outsAt0_B m c (⟨n + 1, h⟩ : Fin cfg0.N) h0 h1]
      dsimp only
      refine ⟨fun b d => ?_, fun b => ?_⟩
      · refine (congrFun (Cases.sums_B (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) scM0_0 (Memref.isWhole_whole _) scM0_1 (Memref.isWhole_whole _) (fun hh => h0 ((hcond0_0 (⟨n + 1, h⟩ : Fin cfg0.N)).mp hh)) (fun hh => h1 ((hcond0_1 (⟨n + 1, h⟩ : Fin cfg0.N)).mp hh)) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (iblk m c 4 (⟨n + 1, h⟩ : Fin cfg0.N)) (iblk m c 5 (⟨n + 1, h⟩ : Fin cfg0.N)) (iblk m c 6 (⟨n + 1, h⟩ : Fin cfg0.N)) (outsAt0 m c ((⟨n + 1, h⟩ : Fin cfg0.N).val - 1) (Nat.lt_of_le_of_lt (Nat.sub_le _ _) (⟨n + 1, h⟩ : Fin cfg0.N).isLt)).2.1 (outsAt0 m c ((⟨n + 1, h⟩ : Fin cfg0.N).val - 1) (Nat.lt_of_le_of_lt (Nat.sub_le _ _) (⟨n + 1, h⟩ : Fin cfg0.N).isLt)).2.2) (ix2 b d)).trans ?_
        refine (upd_sums m c (⟨n + 1, h⟩ : Fin cfg0.N) _ b d).trans ?_
        rw [Finset.sum_range_succ _ (n + 1)]
        exact congrArg (fun z => z + tileSum m c b d (n + 1)) (ihs b d)
      · refine (congrFun (Cases.cnts_B (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) scM0_0 (Memref.isWhole_whole _) scM0_1 (Memref.isWhole_whole _) (fun hh => h0 ((hcond0_0 (⟨n + 1, h⟩ : Fin cfg0.N)).mp hh)) (fun hh => h1 ((hcond0_1 (⟨n + 1, h⟩ : Fin cfg0.N)).mp hh)) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (iblk m c 4 (⟨n + 1, h⟩ : Fin cfg0.N)) (iblk m c 5 (⟨n + 1, h⟩ : Fin cfg0.N)) (iblk m c 6 (⟨n + 1, h⟩ : Fin cfg0.N)) (outsAt0 m c ((⟨n + 1, h⟩ : Fin cfg0.N).val - 1) (Nat.lt_of_le_of_lt (Nat.sub_le _ _) (⟨n + 1, h⟩ : Fin cfg0.N).isLt)).2.1 (outsAt0 m c ((⟨n + 1, h⟩ : Fin cfg0.N).val - 1) (Nat.lt_of_le_of_lt (Nat.sub_le _ _) (⟨n + 1, h⟩ : Fin cfg0.N).isLt)).2.2) (ix2 b (0 : Fin 1))).trans ?_
        refine (upd_cnts m c (⟨n + 1, h⟩ : Fin cfg0.N) _ b).trans ?_
        rw [Finset.sum_range_succ _ (n + 1)]
        exact congrArg (fun z => z + tileCnt m c b (n + 1)) (ihc b)

/-- All 489 tiles together: the feature sum of segment b over the 1000000 argument rows. -/
theorem all_tiles_sum (c : Dev nD) (b : Fin 1024) (d : Fin 128) :
    ∑ a ∈ Finset.range 489, tileSum m c b d a
      = segSum (fun e d => (m ((c : Thread nD τ).loc main_arg0)) (ix2 e d)) (fun e => (m ((c : Thread nD τ).loc main_arg4)) (ix1 e)) b d := by
  rw [Finset.sum_range]
  have e1 : ∀ a : Fin 489, tileSum m c b d a.val
      = ∑ j : Fin 2048, (fun n : Fin 1001472 => hot b.val (segP m c n) * featP m c n d)
          ⟨a.val * 2048 + j.val, Cert.LibSegmentSum.blk_lt a j⟩ := fun a => by
    unfold tileSum; rw [dif_pos a.isLt]
  rw [Fintype.sum_congr _ _ e1,
    Cert.LibSegmentSum.sum_blocks 489 2048 (fun n : Fin 1001472 => hot b.val (segP m c n) * featP m c n d)]
  unfold segSum
  exact hot_sum_padded (E := 1000000) (P := 1472) b.val (by have := b.isLt; omega)
    (fun e => (m ((c : Thread nD τ).loc main_arg4)) (ix1 e)) (fun e => (m ((c : Thread nD τ).loc main_arg0)) (ix2 e d)) (segP m c) (fun n => featP m c n d)
    (fun n hn => Entry.segw_inside m c n hn) (fun n hn => Entry.feat_inside m c n hn d)
    (fun n hn => Entry.segw_pad m c n hn)

/-- All 489 tiles together: the number of argument rows of segment b. -/
theorem all_tiles_cnt (c : Dev nD) (b : Fin 1024) :
    ∑ a ∈ Finset.range 489, tileCnt m c b a = segCnt (fun e => (m ((c : Thread nD τ).loc main_arg4)) (ix1 e)) b := by
  rw [Finset.sum_range]
  have e1 : ∀ a : Fin 489, tileCnt m c b a.val
      = ∑ j : Fin 2048, (fun n : Fin 1001472 => hot b.val (segP m c n))
          ⟨a.val * 2048 + j.val, Cert.LibSegmentSum.blk_lt a j⟩ := fun a => by
    unfold tileCnt; rw [dif_pos a.isLt]
  rw [Fintype.sum_congr _ _ e1,
    Cert.LibSegmentSum.sum_blocks 489 2048 (fun n : Fin 1001472 => hot b.val (segP m c n))]
  unfold segCnt
  exact hot_count_padded (E := 1000000) (P := 1472) b.val (by have := b.isLt; omega)
    (fun e => (m ((c : Thread nD τ).loc main_arg4)) (ix1 e)) (segP m c)
    (fun n hn => Entry.segw_inside m c n hn) (fun n hn => Entry.segw_pad m c n hn)

/-- The output block from totals that are the segment sums and counts, over blocks that are the argument arrays:
    the specification's function. Stated over variables; instantiated at the last point below. -/
theorem out_of_totals (x0 : Vec Ideal S2048x128 .f32) (x1 : Vec Ideal S1x2048 .i32) (xs0 : Vec Ideal S1024x128 .f32)
    (xs1 : Vec Ideal S1024x1 .f32) (x2 : Vec Ideal S1024x128 .f32) (x3 : Vec Ideal S256x512 .f32)
    (x4 : Vec Ideal S1x512 .f32) (x5 : Vec Ideal S512x128 .f32) (x6 : Vec Ideal S1x128 .f32)
    (X : S1000000x128.Idx → EReal) (SEG : S1000000.Idx → BitVec 32) (U : S1024x128.Idx → EReal)
    (W1 : S256x512.Idx → EReal) (B1 : S512.Idx → EReal) (W2 : S512x128.Idx → EReal) (B2 : S128.Idx → EReal)
    (hS : ∀ b d, k0_pay4 (F := Ideal) x0 x1 xs0 (ix2 b d) = segSum (fun e d => X (ix2 e d)) (fun e => SEG (ix1 e)) b d)
    (hC : ∀ b, k0_pay5 (F := Ideal) x1 xs1 (ix2 b (0 : Fin 1)) = segCnt (fun e => SEG (ix1 e)) b)
    (h2 : x2 = U) (h3 : x3 = W1) (h4 : ∀ k, x4 (ix2 (0 : Fin 1) k) = B1 (ix1 k)) (h5 : x5 = W2)
    (h6 : ∀ q, x6 (ix2 (0 : Fin 1) q) = B2 (ix1 q)) (p : Fin 1024) (q : Fin 128) :
    k0_pay6 (F := Ideal) (k0_pay4 x0 x1 xs0) (k0_pay5 x1 xs1) x2 x3 x4 x5 x6 (ix2 p q)
      = G X SEG U W1 B1 W2 B2 (ix2 p q) := by
  subst h2 h3 h5
  rw [pay6_apply]
  have eS : (fun b d => k0_pay4 (F := Ideal) x0 x1 xs0 (ix2 b d))
      = segSum (fun e d => X (ix2 e d)) (fun e => SEG (ix1 e)) := funext fun b => funext fun d => hS b d
  have eC : (fun b => k0_pay5 (F := Ideal) x1 xs1 (ix2 b (0 : Fin 1))) = segCnt (fun e => SEG (ix1 e)) := funext hC
  have e4 : (fun k => x4 (ix2 (0 : Fin 1) k)) = fun k => B1 (ix1 k) := funext h4
  have e6 : (fun q => x6 (ix2 (0 : Fin 1) q)) = fun q => B2 (ix1 q) := funext h6
  rw [eS, eC, e4, e6]
  rfl

/-- The output block after the last point (point n + 1 with n + 1 = 488, kept symbolic) is the specification's
    function of the argument arrays. -/
theorem last_eq_at (c : Dev nD) (n : ℕ) (h : n + 1 < cfg0.N) (hn : n + 1 = 488) :
    (outsAt0 m c (n + 1) h).1 = G (m ((c : Thread nD τ).loc main_arg0)) (m ((c : Thread nD τ).loc main_arg4)) (m ((c : Thread nD τ).loc main_arg3)) (m ((c : Thread nD τ).loc main_arg5)) (m ((c : Thread nD τ).loc main_arg6)) (m ((c : Thread nD τ).loc main_arg7)) (m ((c : Thread nD τ).loc main_arg8)) := by
  have h0 : ¬(⟨n + 1, h⟩ : Fin cfg0.N).val % 489 = 0 := by dsimp only; omega
  have h1 : (⟨n + 1, h⟩ : Fin cfg0.N).val % 489 = 488 := by dsimp only; omega
  have e489 : n + 1 + 1 = 489 := by omega
  obtain ⟨ihs, ihc⟩ := totals m c n (Nat.lt_of_succ_lt h)
  rw [outsAt0_C m c (⟨n + 1, h⟩ : Fin cfg0.N) h0 h1]
  dsimp only
  funext i
  obtain ⟨p, q, rfl⟩ : ∃ (p : Fin 1024) (q : Fin 128), i = ix2 p q := ⟨i 0, i 1, eq_ix2 i⟩
  refine (congrFun (Cases.out_C (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) scM0_0 (Memref.isWhole_whole _) scM0_1 (Memref.isWhole_whole _) (fun hh => h0 ((hcond0_0 (⟨n + 1, h⟩ : Fin cfg0.N)).mp hh)) ((hcond0_1 (⟨n + 1, h⟩ : Fin cfg0.N)).mpr h1) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (iblk m c 4 (⟨n + 1, h⟩ : Fin cfg0.N)) (iblk m c 5 (⟨n + 1, h⟩ : Fin cfg0.N)) (iblk m c 6 (⟨n + 1, h⟩ : Fin cfg0.N)) (outsAt0 m c ((⟨n + 1, h⟩ : Fin cfg0.N).val - 1) (Nat.lt_of_le_of_lt (Nat.sub_le _ _) (⟨n + 1, h⟩ : Fin cfg0.N).isLt)).2.1 (outsAt0 m c ((⟨n + 1, h⟩ : Fin cfg0.N).val - 1) (Nat.lt_of_le_of_lt (Nat.sub_le _ _) (⟨n + 1, h⟩ : Fin cfg0.N).isLt)).2.2) (ix2 p q)).trans ?_
  refine out_of_totals (xblk m c (⟨n + 1, h⟩ : Fin cfg0.N)) (sblk m c (⟨n + 1, h⟩ : Fin cfg0.N)) (outsAt0 m c ((⟨n + 1, h⟩ : Fin cfg0.N).val - 1) (Nat.lt_of_le_of_lt (Nat.sub_le _ _) (⟨n + 1, h⟩ : Fin cfg0.N).isLt)).2.1 (outsAt0 m c ((⟨n + 1, h⟩ : Fin cfg0.N).val - 1) (Nat.lt_of_le_of_lt (Nat.sub_le _ _) (⟨n + 1, h⟩ : Fin cfg0.N).isLt)).2.2
    (iblk m c 2 (⟨n + 1, h⟩ : Fin cfg0.N)) (iblk m c 3 (⟨n + 1, h⟩ : Fin cfg0.N)) (iblk m c 4 (⟨n + 1, h⟩ : Fin cfg0.N)) (iblk m c 5 (⟨n + 1, h⟩ : Fin cfg0.N)) (iblk m c 6 (⟨n + 1, h⟩ : Fin cfg0.N))
    (m ((c : Thread nD τ).loc main_arg0)) (m ((c : Thread nD τ).loc main_arg4)) (m ((c : Thread nD τ).loc main_arg3)) (m ((c : Thread nD τ).loc main_arg5)) (m ((c : Thread nD τ).loc main_arg6)) (m ((c : Thread nD τ).loc main_arg7)) (m ((c : Thread nD τ).loc main_arg8)) ?_ ?_ ?_ ?_ ?_ ?_ ?_ p q
  · intro b d
    refine (upd_sums m c (⟨n + 1, h⟩ : Fin cfg0.N) (outsAt0 m c ((⟨n + 1, h⟩ : Fin cfg0.N).val - 1) (Nat.lt_of_le_of_lt (Nat.sub_le _ _) (⟨n + 1, h⟩ : Fin cfg0.N).isLt)).2.1 b d).trans ?_
    refine (congrArg (fun z => z + tileSum m c b d (n + 1)) (ihs b d)).trans ?_
    rw [← Finset.sum_range_succ (fun a => tileSum m c b d a) (n + 1), e489]
    exact all_tiles_sum m c b d
  · intro b
    refine (upd_cnts m c (⟨n + 1, h⟩ : Fin cfg0.N) (outsAt0 m c ((⟨n + 1, h⟩ : Fin cfg0.N).val - 1) (Nat.lt_of_le_of_lt (Nat.sub_le _ _) (⟨n + 1, h⟩ : Fin cfg0.N).isLt)).2.2 b).trans ?_
    refine (congrArg (fun z => z + tileCnt m c b (n + 1)) (ihc b)).trans ?_
    rw [← Finset.sum_range_succ (fun a => tileCnt m c b a) (n + 1), e489]
    exact all_tiles_cnt m c b
  · exact (Blocks.blk2_eq m c (⟨n + 1, h⟩ : Fin cfg0.N)).trans (V_main_arg3 m c)
  · exact (Blocks.blk3_eq m c (⟨n + 1, h⟩ : Fin cfg0.N)).trans (V_main_arg5 m c)
  · intro k
    exact (congrFun (Blocks.blk4_eq m c (⟨n + 1, h⟩ : Fin cfg0.N)) (ix2 (0 : Fin 1) k)).trans (Entry.bias1_apply m c k)
  · exact (Blocks.blk5_eq m c (⟨n + 1, h⟩ : Fin cfg0.N)).trans (V_main_arg7 m c)
  · intro q'
    exact (congrFun (Blocks.blk6_eq m c (⟨n + 1, h⟩ : Fin cfg0.N)) (ix2 (0 : Fin 1) q')).trans (Entry.bias2_apply m c q')

/-- The same at the literal last point. -/
theorem last_eq (c : Dev nD) (h : 488 < cfg0.N) :
    (outsAt0 m c 488 h).1 = G (m ((c : Thread nD τ).loc main_arg0)) (m ((c : Thread nD τ).loc main_arg4)) (m ((c : Thread nD τ).loc main_arg3)) (m ((c : Thread nD τ).loc main_arg5)) (m ((c : Thread nD τ).loc main_arg6)) (m ((c : Thread nD τ).loc main_arg7)) (m ((c : Thread nD τ).loc main_arg8)) :=
  last_eq_at m c 487 h rfl

end Cert.SegMeanMlp.Kernel

end
-- ==== Proof.KernelRun.lean ====
/-
  The result array is what the last grid point stored.

  The kernel's output window is written back once, after the last of the 489 grid points. Its one block is block
  (0, 0) of the [1024, 128] result array: read through zero offsets the block IS the array, and it covers every
  index. So if what the body leaves in the output's staging buffer after the last point is the specification's
  function of the arguments, the result array ends holding that function; the arguments are as launched.
-/
import proofs.«400438_j2714419331676_1_alg».proof.Proof.Gen.KernelIdeal.Value
import proofs.«400438_j2714419331676_1_alg».proof.Proof.Spec

noncomputable section

namespace Cert.SegMeanMlp.Kernel

open Cert.KernelIdeal Cert.KernelIdeal.Gen Cert.KernelIdeal.Value Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The specification's function of the launch contents of the seven arguments the kernel uses. -/
abbrev result (m : (ℓ : Loc nD τ sig) → Buf (Elt Ideal) ℓ) (c : Dev nD) : S1024x128.Idx → EReal :=
  Cert.SegMeanMlp.G (m ((c : Thread nD τ).loc main_arg0)) (m ((c : Thread nD τ).loc main_arg4)) (m ((c : Thread nD τ).loc main_arg3))
    (m ((c : Thread nD τ).loc main_arg5)) (m ((c : Thread nD τ).loc main_arg6)) (m ((c : Thread nD τ).loc main_arg7)) (m ((c : Thread nD τ).loc main_arg8))

/-- The last grid point. -/
abbrev tLast : Fin cfg0.N := ⟨488, by rw [show cfg0.N = 489 from N_0]; decide⟩

/-- The output window's block offsets are zero at every point. -/
theorem outOffsets_zero (t : Fin cfg0.N) :
    (fun a => win0_7.index t a * main_v5.ty.shape.size a) = fun _ => 0 :=
  funext fun a => by fin_cases a <;> rfl

/-- The one write-back, after the last point, writes the function: block (0, 0) of the [1024, 128] array read through
    zero offsets is the array. -/
theorem flushed_eq (c : Dev nD) (hlast : ∀ h : 488 < cfg0.N, (outsAt0 m c 488 h).1 = result m c)
    (t : Fin cfg0.N) (hf : (cfg0.win 7).flush t = true) :
    (dats m 0 c).flushed 7 t = ((cfg0.win 7).blk t).view.read (Elt Ideal) (result m c) := by
  have hN : cfg0.N = 489 := N_0
  have h488 : t.val = 488 := by have := (flush0_7 t).mp hf; have := t.isLt; omega
  obtain rfl : t = tLast := Fin.ext h488
  rw [Value.flushed7]
  refine (congrArg ((cfg0.win 7).cut (grid0.coords tLast)) (hlast tLast.isLt)).trans ?_
  exact (Memref.read_access_unit_zero (Elt Ideal) main_v5 (outOffsets_zero tLast)
    (fun a => by rw [congrFun (outOffsets_zero tLast) a]; simp) (result m c)).symm

/-- So the result array ends holding the function: the last point's block covers every index. -/
theorem final_of (c : Dev nD) (hlast : ∀ h : 488 < cfg0.N, (outsAt0 m c 488 h).1 = result m c) :
    (dats m 0 c).arrAt 7 cfg0.N = result m c :=
  (dats m 0 c).arrAt_eq_of_cover 7 (result m c) (flushed_eq m c hlast) fun i =>
    ⟨tLast, (flush0_7 tLast).mpr rfl, by
      show i ∈ ((View.whole main_v5).slice (win0_7.rect tLast)).set
      rw [View.set_slice_whole, Rect.mem_set_unit]
      intro a
      have h0 : (i 0 : Nat) < 1024 := (i 0).isLt
      have h1 : (i 1 : Nat) < 128 := (i 1).isLt
      match a with
      | ⟨0, _⟩ =>
        show win0_7.index tLast 0 * win0_7.size 0 ≤ (i 0 : Nat)
          ∧ (i 0 : Nat) < win0_7.index tLast 0 * win0_7.size 0 + win0_7.xsize (grid0.coords tLast) 0
        rw [show win0_7.index tLast 0 * win0_7.size 0 = 0 from by decide +kernel,
          show win0_7.xsize (grid0.coords tLast) 0 = 1024 from by decide +kernel]
        omega
      | ⟨1, _⟩ =>
        show win0_7.index tLast 1 * win0_7.size 1 ≤ (i 1 : Nat)
          ∧ (i 1 : Nat) < win0_7.index tLast 1 * win0_7.size 1 + win0_7.xsize (grid0.coords tLast) 1
        rw [show win0_7.index tLast 1 * win0_7.size 1 = 0 from by decide +kernel,
          show win0_7.xsize (grid0.coords tLast) 1 = 128 from by decide +kernel]
        omega⟩

/-- The run, read: the result array holds the function, the arguments are as launched. -/
theorem run_of (hlast : ∀ (c : Dev nD) (h : 488 < cfg0.N), (outsAt0 m c 488 h).1 = result m c) :
    θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final_of m c (hlast c)), (h c).2⟩) (Value.run_blocks m ρ)

end Cert.SegMeanMlp.Kernel

end
-- ==== Proof.LibScatterSum.lean ====
/-
  AN ACCUMULATING SCATTER ALONG ONE AXIS, READ AT AN INDEX. At the ideal instance a host scatter with an add body is, at
  each operand index, the operand's element plus the sum of the updates whose result index is that index; the start
  index is read signed and not clamped, and an update that lands outside the operand adds nothing. For three layouts
  with ONE index word per update (scatter indices `[E, 1]`) — updates `[C, E]` into `[C, N]` along axis 1, updates
  `[E, K]` into `[N, K]` along axis 0, updates `[E]` into `[N]` — the scatter at an index is the operand's element
  plus the plain sum, over the updates `e` whose index word read signed equals the scattered coordinate `n`, of the
  update element on the same window coordinate. Each layout: the start and the window coordinate on each operand axis,
  then when an update lands on a given index, then the sum re-indexed by coordinates.
-/
import Idealize.ShloMosaic.PureOps.Ideal
import Idealize.ShloMosaic.Lib.ValueIdx

noncomputable section

open Idealize.ShloMosaic Idealize.ShloMosaic.ValueIdx
open scoped BigOperators

namespace Cert.LibScatterSum

section Cols
variable {C N E w : Nat}
  (h : ScatterDims.WF (⟨2, ![C, N]⟩ : Shape) (⟨2, ![E, 1]⟩ : Shape) (⟨2, ![C, E]⟩ : Shape) [0] [1] [1] 1)

/-- The dimension numbers: update window axis 0, inserted operand axis 1, start indices for operand axis 1, the index
    vector on the scatter indices' axis 1. -/
abbrev colsDims : ScatterDims (⟨2, ![C, N]⟩ : Shape) (⟨2, ![E, 1]⟩ : Shape) (⟨2, ![C, E]⟩ : Shape) := ⟨[0], [1], [1], 1, h⟩

/-- No start index names operand axis 0: the window starts at 0 there. -/
theorem cols_start0 (j : (⟨2, ![C, E]⟩ : Shape).Idx) (idx : IVec (⟨2, ![E, 1]⟩ : Shape) w) (h0) :
    (colsDims h).start j idx ⟨0, h0⟩ = 0 := by
  have hm : (⟨0, h0⟩ : Fin (⟨2, ![C, N]⟩ : Shape).rank) ∉ (colsDims h).scatterDimsToOperandDims := by
    show (0 : Fin 2) ∉ ([1] : List (Fin 2)); decide
  unfold ScatterDims.start
  rw [dif_neg hm]

/-- Update `j` reads its one start-index component at `(j 1, 0)` of the scatter indices. -/
theorem cols_siIdx (j : (⟨2, ![C, E]⟩ : Shape).Idx) (c : Fin (colsDims h).scatterDimsToOperandDims.length) :
    (colsDims h).siIdx j c = ix2 (j 1) (0 : Fin 1) := by
  funext b; refine Fin.ext ?_
  match b with
  | ⟨0, _⟩ => rfl
  | ⟨1, _⟩ =>
    show c.val = 0
    have : c.val < 1 := c.isLt
    omega

/-- On operand axis 1 the window starts at the index word of update column `j 1`, read signed. -/
theorem cols_start1 (j : (⟨2, ![C, E]⟩ : Shape).Idx) (idx : IVec (⟨2, ![E, 1]⟩ : Shape) w) (h1) :
    (colsDims h).start j idx ⟨1, h1⟩ = (idx (ix2 (j 1) (0 : Fin 1))).toInt := by
  have hm : (⟨1, h1⟩ : Fin (⟨2, ![C, N]⟩ : Shape).rank) ∈ (colsDims h).scatterDimsToOperandDims := by
    show (1 : Fin 2) ∈ ([1] : List (Fin 2)); decide
  unfold ScatterDims.start
  rw [dif_pos hm, cols_siIdx h j]
  rfl

/-- On operand axis 0 the window coordinate is the update's row. -/
theorem cols_window0 (j : (⟨2, ![C, E]⟩ : Shape).Idx) (h0) : (colsDims h).window j ⟨0, h0⟩ = (j 0).val := by
  have hm : (⟨0, h0⟩ : Fin (⟨2, ![C, N]⟩ : Shape).rank) ∈ (colsDims h).sKept := by
    show (0 : Fin 2) ∈ (List.finRange 2).filter (· ∉ ([1] : List (Fin 2))); decide
  unfold ScatterDims.window
  rw [dif_pos hm]
  rfl

/-- Operand axis 1 is inserted: window coordinate 0. -/
theorem cols_window1 (j : (⟨2, ![C, E]⟩ : Shape).Idx) (h1) : (colsDims h).window j ⟨1, h1⟩ = 0 := by
  have hm : (⟨1, h1⟩ : Fin (⟨2, ![C, N]⟩ : Shape).rank) ∉ (colsDims h).sKept := by
    show (1 : Fin 2) ∉ (List.finRange 2).filter (· ∉ ([1] : List (Fin 2))); decide
  unfold ScatterDims.window
  rw [dif_neg hm]

/-- Update `j` lands on `(c, n)` exactly when its row is `c` and its column's index word, read signed, is `n`. -/
theorem cols_resultIdx_iff (j : (⟨2, ![C, E]⟩ : Shape).Idx) (idx : IVec (⟨2, ![E, 1]⟩ : Shape) w)
    (c : Fin C) (n : Fin N) :
    (colsDims h).resultIdx? j idx = some (ix2 c n) ↔
      j 0 = c ∧ (idx (ix2 (j 1) (0 : Fin 1))).toInt = (n.val : ℤ) := by
  unfold ScatterDims.resultIdx?
  split
  · rename_i hb
    rw [Option.some.injEq]
    constructor
    · intro he
      have e0 := congrArg Fin.val (congrFun he ⟨0, Nat.zero_lt_two⟩)
      have e1 := congrArg Fin.val (congrFun he ⟨1, Nat.one_lt_two⟩)
      have b1 := (hb ⟨1, Nat.one_lt_two⟩).1
      simp only [cols_start0, cols_start1, cols_window0, cols_window1] at e0 e1 b1
      refine ⟨Fin.ext ?_, ?_⟩
      · change _ = c.val at e0; omega
      · change _ = n.val at e1; omega
    · rintro ⟨hc, hn⟩
      funext a; refine Fin.ext ?_
      match a with
      | ⟨0, h0⟩ =>
        show ((colsDims h).start j idx ⟨0, h0⟩ + ((colsDims h).window j ⟨0, h0⟩ : ℕ)).toNat = c.val
        rw [cols_start0, cols_window0, hc]; omega
      | ⟨1, h1⟩ =>
        show ((colsDims h).start j idx ⟨1, h1⟩ + ((colsDims h).window j ⟨1, h1⟩ : ℕ)).toNat = n.val
        rw [cols_start1, cols_window1, hn]; omega
  · rename_i hb
    constructor
    · intro he; cases he
    · rintro ⟨hc, hn⟩
      exfalso; apply hb
      intro a
      match a with
      | ⟨0, _⟩ =>
        show 0 ≤ _ ∧ _ < ((C : ℕ) : ℤ)
        rw [cols_start0, cols_window0, hc]; have := c.isLt; omega
      | ⟨1, _⟩ =>
        show 0 ≤ _ ∧ _ < ((N : ℕ) : ℤ)
        rw [cols_start1, cols_window1, hn]; have := n.isLt; omega

/-- The scatter at `(c, n)`, over the named dimension numbers. -/
theorem cols_sum (x : (⟨2, ![C, N]⟩ : Shape).Idx → EReal) (idx : IVec (⟨2, ![E, 1]⟩ : Shape) w)
    (upd : (⟨2, ![C, E]⟩ : Shape).Idx → EReal) (c : Fin C) (n : Fin N) :
    Ideal.hostScatterAdd (colsDims h) x idx upd (ix2 c n)
      = x (ix2 c n) + ∑ e ∈ Finset.univ.filter (fun e : Fin E => (idx (ix2 e (0 : Fin 1))).toInt = (n.val : ℤ)), upd (ix2 c e) := by
  unfold Ideal.hostScatterAdd
  congr 1
  rw [Finset.sum_filter, Finset.sum_filter, sum_idx2, Finset.sum_comm]
  refine Finset.sum_congr rfl fun e _ => ?_
  have hiff : ∀ a : Fin C, ((colsDims h).resultIdx? (ix2 a e) idx = some (ix2 c n)) ↔
      (a = c ∧ (idx (ix2 e (0 : Fin 1))).toInt = (n.val : ℤ)) := fun a => cols_resultIdx_iff h (ix2 a e) idx c n
  simp only [hiff]
  by_cases hp : (idx (ix2 e (0 : Fin 1))).toInt = (n.val : ℤ)
  · simp only [hp, and_true, if_true, Finset.sum_ite_eq', Finset.mem_univ]
  · simp only [hp, and_false, if_false, Finset.sum_const_zero]
end Cols

section Rows
variable {N K E w : Nat}
  (h : ScatterDims.WF (⟨2, ![N, K]⟩ : Shape) (⟨2, ![E, 1]⟩ : Shape) (⟨2, ![E, K]⟩ : Shape) [1] [0] [0] 1)

/-- The dimension numbers: update window axis 1, inserted operand axis 0, start indices for operand axis 0, the index
    vector on the scatter indices' axis 1. -/
abbrev rowsDims : ScatterDims (⟨2, ![N, K]⟩ : Shape) (⟨2, ![E, 1]⟩ : Shape) (⟨2, ![E, K]⟩ : Shape) := ⟨[1], [0], [0], 1, h⟩

/-- Update `j` reads its one start-index component at `(j 0, 0)` of the scatter indices. -/
theorem rows_siIdx (j : (⟨2, ![E, K]⟩ : Shape).Idx) (c : Fin (rowsDims h).scatterDimsToOperandDims.length) :
    (rowsDims h).siIdx j c = ix2 (j 0) (0 : Fin 1) := by
  funext b; refine Fin.ext ?_
  match b with
  | ⟨0, _⟩ => rfl
  | ⟨1, _⟩ =>
    show c.val = 0
    have : c.val < 1 := c.isLt
    omega

/-- On operand axis 0 the window starts at the index word of update row `j 0`, read signed. -/
theorem rows_start0 (j : (⟨2, ![E, K]⟩ : Shape).Idx) (idx : IVec (⟨2, ![E, 1]⟩ : Shape) w) (h0) :
    (rowsDims h).start j idx ⟨0, h0⟩ = (idx (ix2 (j 0) (0 : Fin 1))).toInt := by
  have hm : (⟨0, h0⟩ : Fin (⟨2, ![N, K]⟩ : Shape).rank) ∈ (rowsDims h).scatterDimsToOperandDims := by
    show (0 : Fin 2) ∈ ([0] : List (Fin 2)); decide
  unfold ScatterDims.start
  rw [dif_pos hm, rows_siIdx h j]
  rfl

/-- No start index names operand axis 1: the window starts at 0 there. -/
theorem rows_start1 (j : (⟨2, ![E, K]⟩ : Shape).Idx) (idx : IVec (⟨2, ![E, 1]⟩ : Shape) w) (h1) :
    (rowsDims h).start j idx ⟨1, h1⟩ = 0 := by
  have hm : (⟨1, h1⟩ : Fin (⟨2, ![N, K]⟩ : Shape).rank) ∉ (rowsDims h).scatterDimsToOperandDims := by
    show (1 : Fin 2) ∉ ([0] : List (Fin 2)); decide
  unfold ScatterDims.start
  rw [dif_neg hm]

/-- Operand axis 0 is inserted: window coordinate 0. -/
theorem rows_window0 (j : (⟨2, ![E, K]⟩ : Shape).Idx) (h0) : (rowsDims h).window j ⟨0, h0⟩ = 0 := by
  have hm : (⟨0, h0⟩ : Fin (⟨2, ![N, K]⟩ : Shape).rank) ∉ (rowsDims h).sKept := by
    show (0 : Fin 2) ∉ (List.finRange 2).filter (· ∉ ([0] : List (Fin 2))); decide
  unfold ScatterDims.window
  rw [dif_neg hm]

/-- On operand axis 1 the window coordinate is the update's column. -/
theorem rows_window1 (j : (⟨2, ![E, K]⟩ : Shape).Idx) (h1) : (rowsDims h).window j ⟨1, h1⟩ = (j 1).val := by
  have hm : (⟨1, h1⟩ : Fin (⟨2, ![N, K]⟩ : Shape).rank) ∈ (rowsDims h).sKept := by
    show (1 : Fin 2) ∈ (List.finRange 2).filter (· ∉ ([0] : List (Fin 2))); decide
  unfold ScatterDims.window
  rw [dif_pos hm]
  rfl

/-- Update `j` lands on `(n, k)` exactly when its row's index word, read signed, is `n` and its column is `k`. -/
theorem rows_resultIdx_iff (j : (⟨2, ![E, K]⟩ : Shape).Idx) (idx : IVec (⟨2, ![E, 1]⟩ : Shape) w)
    (n : Fin N) (k : Fin K) :
    (rowsDims h).resultIdx? j idx = some (ix2 n k) ↔
      (idx (ix2 (j 0) (0 : Fin 1))).toInt = (n.val : ℤ) ∧ j 1 = k := by
  unfold ScatterDims.resultIdx?
  split
  · rename_i hb
    rw [Option.some.injEq]
    constructor
    · intro he
      have e0 := congrArg Fin.val (congrFun he ⟨0, Nat.zero_lt_two⟩)
      have e1 := congrArg Fin.val (congrFun he ⟨1, Nat.one_lt_two⟩)
      have b0 := (hb ⟨0, Nat.zero_lt_two⟩).1
      simp only [rows_start0, rows_start1, rows_window0, rows_window1] at e0 e1 b0
      refine ⟨?_, Fin.ext ?_⟩
      · change _ = n.val at e0; omega
      · change _ = k.val at e1; omega
    · rintro ⟨hn, hk⟩
      funext a; refine Fin.ext ?_
      match a with
      | ⟨0, h0⟩ =>
        show ((rowsDims h).start j idx ⟨0, h0⟩ + ((rowsDims h).window j ⟨0, h0⟩ : ℕ)).toNat = n.val
        rw [rows_start0, rows_window0, hn]; omega
      | ⟨1, h1⟩ =>
        show ((rowsDims h).start j idx ⟨1, h1⟩ + ((rowsDims h).window j ⟨1, h1⟩ : ℕ)).toNat = k.val
        rw [rows_start1, rows_window1, hk]; omega
  · rename_i hb
    constructor
    · intro he; cases he
    · rintro ⟨hn, hk⟩
      exfalso; apply hb
      intro a
      match a with
      | ⟨0, _⟩ =>
        show 0 ≤ _ ∧ _ < ((N : ℕ) : ℤ)
        rw [rows_start0, rows_window0, hn]; have := n.isLt; omega
      | ⟨1, _⟩ =>
        show 0 ≤ _ ∧ _ < ((K : ℕ) : ℤ)
        rw [rows_start1, rows_window1, hk]; have := k.isLt; omega

/-- The scatter at `(n, k)`, over the named dimension numbers. -/
theorem rows_sum (x : (⟨2, ![N, K]⟩ : Shape).Idx → EReal) (idx : IVec (⟨2, ![E, 1]⟩ : Shape) w)
    (upd : (⟨2, ![E, K]⟩ : Shape).Idx → EReal) (n : Fin N) (k : Fin K) :
    Ideal.hostScatterAdd (rowsDims h) x idx upd (ix2 n k)
      = x (ix2 n k) + ∑ e ∈ Finset.univ.filter (fun e : Fin E => (idx (ix2 e (0 : Fin 1))).toInt = (n.val : ℤ)), upd (ix2 e k) := by
  unfold Ideal.hostScatterAdd
  congr 1
  rw [Finset.sum_filter, Finset.sum_filter, sum_idx2]
  refine Finset.sum_congr rfl fun e _ => ?_
  have hiff : ∀ b : Fin K, ((rowsDims h).resultIdx? (ix2 e b) idx = some (ix2 n k)) ↔
      ((idx (ix2 e (0 : Fin 1))).toInt = (n.val : ℤ) ∧ b = k) := fun b => rows_resultIdx_iff h (ix2 e b) idx n k
  simp only [hiff]
  by_cases hp : (idx (ix2 e (0 : Fin 1))).toInt = (n.val : ℤ)
  · simp only [hp, true_and, if_true, Finset.sum_ite_eq', Finset.mem_univ]
  · simp only [hp, false_and, if_false, Finset.sum_const_zero]
end Rows

section Vec
variable {N E w : Nat}
  (h : ScatterDims.WF (⟨1, ![N]⟩ : Shape) (⟨2, ![E, 1]⟩ : Shape) (⟨1, ![E]⟩ : Shape) [] [0] [0] 1)

/-- The dimension numbers: no update window axis, inserted operand axis 0, start indices for operand axis 0, the index
    vector on the scatter indices' axis 1. -/
abbrev vecDims : ScatterDims (⟨1, ![N]⟩ : Shape) (⟨2, ![E, 1]⟩ : Shape) (⟨1, ![E]⟩ : Shape) := ⟨[], [0], [0], 1, h⟩

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Update `j` reads its one start-index component at `(j 0, 0)` of the scatter indices. -/
theorem vec_siIdx (j : (⟨1, ![E]⟩ : Shape).Idx) (c : Fin (vecDims h).scatterDimsToOperandDims.length) :
    (vecDims h).siIdx j c = ix2 (j 0) (0 : Fin 1) := by
  funext b; refine Fin.ext ?_
  match b with
  | ⟨0, _⟩ => rfl
  | ⟨1, _⟩ =>
    show c.val = 0
    have : c.val < 1 := c.isLt
    omega

/-- On the operand's one axis the window starts at the index word of update `j 0`, read signed. -/
theorem vec_start0 (j : (⟨1, ![E]⟩ : Shape).Idx) (idx : IVec (⟨2, ![E, 1]⟩ : Shape) w) (h0) :
    (vecDims h).start j idx ⟨0, h0⟩ = (idx (ix2 (j 0) (0 : Fin 1))).toInt := by
  have hm : (⟨0, h0⟩ : Fin (⟨1, ![N]⟩ : Shape).rank) ∈ (vecDims h).scatterDimsToOperandDims := by
    show (0 : Fin 1) ∈ ([0] : List (Fin 1)); decide
  unfold ScatterDims.start
  rw [dif_pos hm, vec_siIdx h j]
  rfl

/-- The operand's one axis is inserted: window coordinate 0. -/
theorem vec_window0 (j : (⟨1, ![E]⟩ : Shape).Idx) (h0) : (vecDims h).window j ⟨0, h0⟩ = 0 := by
  have hm : (⟨0, h0⟩ : Fin (⟨1, ![N]⟩ : Shape).rank) ∉ (vecDims h).sKept := by
    show (0 : Fin 1) ∉ (List.finRange 1).filter (· ∉ ([0] : List (Fin 1))); decide
  unfold ScatterDims.window
  rw [dif_neg hm]

/-- Update `j` lands on `n` exactly when its index word, read signed, is `n`. -/
theorem vec_resultIdx_iff (j : (⟨1, ![E]⟩ : Shape).Idx) (idx : IVec (⟨2, ![E, 1]⟩ : Shape) w) (n : Fin N) :
    (vecDims h).resultIdx? j idx = some (ix1 n) ↔ (idx (ix2 (j 0) (0 : Fin 1))).toInt = (n.val : ℤ) := by
  unfold ScatterDims.resultIdx?
  split
  · rename_i hb
    rw [Option.some.injEq]
    constructor
    · intro he
      have e0 := congrArg Fin.val (congrFun he ⟨0, Nat.zero_lt_one⟩)
      have b0 := (hb ⟨0, Nat.zero_lt_one⟩).1
      simp only [vec_start0, vec_window0] at e0 b0
      change _ = n.val at e0; omega
    · intro hn
      funext a; refine Fin.ext ?_
      match a with
      | ⟨0, h0⟩ =>
        show ((vecDims h).start j idx ⟨0, h0⟩ + ((vecDims h).window j ⟨0, h0⟩ : ℕ)).toNat = n.val
        rw [vec_start0, vec_window0, hn]; omega
  · rename_i hb
    constructor
    · intro he; cases he
    · intro hn
      exfalso; apply hb
      intro a
      match a with
      | ⟨0, _⟩ =>
        show 0 ≤ _ ∧ _ < ((N : ℕ) : ℤ)
        rw [vec_start0, vec_window0, hn]; have := n.isLt; omega

/-- The scatter at `n`, over the named dimension numbers. -/
theorem vec_sum (x : (⟨1, ![N]⟩ : Shape).Idx → EReal) (idx : IVec (⟨2, ![E, 1]⟩ : Shape) w)
    (upd : (⟨1, ![E]⟩ : Shape).Idx → EReal) (n : Fin N) :
    Ideal.hostScatterAdd (vecDims h) x idx upd (ix1 n)
      = x (ix1 n) + ∑ e ∈ Finset.univ.filter (fun e : Fin E => (idx (ix2 e (0 : Fin 1))).toInt = (n.val : ℤ)), upd (ix1 e) := by
  unfold Ideal.hostScatterAdd
  congr 1
  rw [Finset.sum_filter, Finset.sum_filter, sum_idx1]
  refine Finset.sum_congr rfl fun e _ => ?_
  have hiff : ((vecDims h).resultIdx? (ix1 e) idx = some (ix1 n)) ↔
      ((idx (ix2 e (0 : Fin 1))).toInt = (n.val : ℤ)) := vec_resultIdx_iff h (ix1 e) idx n
  simp only [hiff]
end Vec

/-! ## The three layouts, over their literal dimension numbers -/

/-- An accumulating scatter whose window axis is axis 0 and whose scattered axis is axis 1 (operand `[C, N]`,
    one index word per update column in `[E, 1]`, updates `[C, E]`), read at `(c, n)`: the operand's element plus
    the sum of the updates `(c, e)` over the columns `e` whose index word, read signed, is `n`. -/
theorem scatterAdd_cols {C N E w : Nat}
    (h : ScatterDims.WF (⟨2, ![C, N]⟩ : Shape) (⟨2, ![E, 1]⟩ : Shape) (⟨2, ![C, E]⟩ : Shape) [0] [1] [1] 1)
    (x : (⟨2, ![C, N]⟩ : Shape).Idx → EReal) (idx : IVec (⟨2, ![E, 1]⟩ : Shape) w) (upd : (⟨2, ![C, E]⟩ : Shape).Idx → EReal)
    (c : Fin C) (n : Fin N) :
    Ideal.hostScatterAdd (⟨[0], [1], [1], 1, h⟩ : ScatterDims (⟨2, ![C, N]⟩ : Shape) (⟨2, ![E, 1]⟩ : Shape) (⟨2, ![C, E]⟩ : Shape)) x idx upd (ix2 c n)
      = x (ix2 c n) + ∑ e ∈ Finset.univ.filter (fun e : Fin E => (idx (ix2 e (0 : Fin 1))).toInt = (n.val : ℤ)), upd (ix2 c e) := by
  exact cols_sum h x idx upd c n

/-- An accumulating scatter whose scattered axis is axis 0 and whose window axis is axis 1 (operand `[N, K]`,
    one index word per update row in `[E, 1]`, updates `[E, K]`), read at `(n, k)`: the operand's element plus
    the sum of the updates `(e, k)` over the rows `e` whose index word, read signed, is `n`. -/
theorem scatterAdd_rows {N K E w : Nat}
    (h : ScatterDims.WF (⟨2, ![N, K]⟩ : Shape) (⟨2, ![E, 1]⟩ : Shape) (⟨2, ![E, K]⟩ : Shape) [1] [0] [0] 1)
    (x : (⟨2, ![N, K]⟩ : Shape).Idx → EReal) (idx : IVec (⟨2, ![E, 1]⟩ : Shape) w) (upd : (⟨2, ![E, K]⟩ : Shape).Idx → EReal)
    (n : Fin N) (k : Fin K) :
    Ideal.hostScatterAdd (⟨[1], [0], [0], 1, h⟩ : ScatterDims (⟨2, ![N, K]⟩ : Shape) (⟨2, ![E, 1]⟩ : Shape) (⟨2, ![E, K]⟩ : Shape)) x idx upd (ix2 n k)
      = x (ix2 n k) + ∑ e ∈ Finset.univ.filter (fun e : Fin E => (idx (ix2 e (0 : Fin 1))).toInt = (n.val : ℤ)), upd (ix2 e k) := by
  exact rows_sum h x idx upd n k

/-- An accumulating scatter into a vector (operand `[N]`, one index word per update in `[E, 1]`, updates `[E]`,
    no window axis), read at `n`: the operand's element plus the sum of the updates `e` whose index word, read
    signed, is `n`. -/
theorem scatterAdd_vec {N E w : Nat}
    (h : ScatterDims.WF (⟨1, ![N]⟩ : Shape) (⟨2, ![E, 1]⟩ : Shape) (⟨1, ![E]⟩ : Shape) [] [0] [0] 1)
    (x : (⟨1, ![N]⟩ : Shape).Idx → EReal) (idx : IVec (⟨2, ![E, 1]⟩ : Shape) w) (upd : (⟨1, ![E]⟩ : Shape).Idx → EReal)
    (n : Fin N) :
    Ideal.hostScatterAdd (⟨[], [0], [0], 1, h⟩ : ScatterDims (⟨1, ![N]⟩ : Shape) (⟨2, ![E, 1]⟩ : Shape) (⟨1, ![E]⟩ : Shape)) x idx upd (ix1 n)
      = x (ix1 n) + ∑ e ∈ Finset.univ.filter (fun e : Fin E => (idx (ix2 e (0 : Fin 1))).toInt = (n.val : ℤ)), upd (ix1 e) := by
  exact vec_sum h x idx upd n

end Cert.LibScatterSum

end
-- ==== Proof.RefValue.lean ====
/-
  THE REFERENCE IS G. The reference program scatters the rows of x into 1024 segment sums and the constant one into
  1024 segment counts, divides each sum by its count clamped below at one, lays the globals and the means side by
  side, and sends the joined rows through two affine layers with a rectifier in between. Read entry by entry this
  is the specification's function G of the arguments: each scatter starts from zero and so is the plain sum over the
  rows whose segment word, read signed, is the segment's number.
-/
import proofs.«400438_j2714419331676_1_alg».proof.Proof.Gen.ReferenceIdeal.Read
import proofs.«400438_j2714419331676_1_alg».proof.Proof.Spec
import proofs.«400438_j2714419331676_1_alg».proof.Proof.Concat
import proofs.«400438_j2714419331676_1_alg».proof.Proof.LibScatterSum
import Idealize.ShloMosaic.Lib.IdealHost
import Idealize.ShloMosaic.Lib.ValueIdx
import Idealize.ShloMosaic.PureOps.Ideal
import Idealize.ShloMosaic.PureOps.Ideal.Laws

noncomputable section

namespace Cert.SegMeanMlp.Ref

open Cert.ReferenceIdeal Cert.ReferenceIdeal.Gen Cert.ReferenceIdeal.Read
open Idealize.ShloMosaic Idealize.ShloMosaic.ValueIdx
open scoped BigOperators

/-! ## The specification's definitions, unfolded one at a time -/

theorem segSum_def {E : ℕ} (x : Fin E → Fin 128 → EReal) (seg : Fin E → BitVec 32) (b : Fin 1024) (d : Fin 128) :
    segSum x seg b d = ∑ e ∈ Finset.univ.filter (fun e => (seg e).toInt = ((b.val : ℕ) : ℤ)), x e d := rfl

theorem segCnt_def {E : ℕ} (seg : Fin E → BitVec 32) (b : Fin 1024) :
    segCnt seg b = ∑ _e ∈ Finset.univ.filter (fun e => (seg e).toInt = ((b.val : ℕ) : ℤ)), (1 : EReal) := rfl

theorem mean_def (sums : Fin 1024 → Fin 128 → EReal) (cnts : Fin 1024 → EReal) (b : Fin 1024) (d : Fin 128) :
    mean sums cnts b d = Ideal.div (sums b d) (max (cnts b) (Ideal.ofBits .f32 0x3F800000#32)) := rfl

theorem catRows_def (u mn : Fin 1024 → Fin 128 → EReal) (p : Fin 1024) (c : Fin 256) :
    catRows u mn p c
      = if h : c.val < 128 then u p ⟨c.val, h⟩ else mn p ⟨c.val - 128, by have := c.isLt; omega⟩ := rfl

theorem hidden_def (cat : Fin 1024 → Fin 256 → EReal) (W1 : Fin 256 → Fin 512 → EReal) (b1 : Fin 512 → EReal)
    (p : Fin 1024) (k : Fin 512) :
    hidden cat W1 b1 p k = max ((∑ c : Fin 256, cat p c * W1 c k) + b1 k) (Ideal.ofBits .f32 0x00000000#32) := rfl

theorem out_def (cat : Fin 1024 → Fin 256 → EReal) (W1 : Fin 256 → Fin 512 → EReal) (b1 : Fin 512 → EReal)
    (W2 : Fin 512 → Fin 128 → EReal) (b2 : Fin 128 → EReal) (p : Fin 1024) (q : Fin 128) :
    out cat W1 b1 W2 b2 p q = (∑ k : Fin 512, hidden cat W1 b1 p k * W2 k q) + b2 q := rfl

/-- The specification's function read at `(p, q)`. -/
theorem G_apply (x : (⟨2, ![1000000, 128]⟩ : Shape).Idx → EReal) (seg : (⟨1, ![1000000]⟩ : Shape).Idx → BitVec 32)
    (u : (⟨2, ![1024, 128]⟩ : Shape).Idx → EReal) (W1 : (⟨2, ![256, 512]⟩ : Shape).Idx → EReal)
    (b1 : (⟨1, ![512]⟩ : Shape).Idx → EReal) (W2 : (⟨2, ![512, 128]⟩ : Shape).Idx → EReal)
    (b2 : (⟨1, ![128]⟩ : Shape).Idx → EReal) (p : Fin 1024) (q : Fin 128) :
    G x seg u W1 b1 W2 b2 (ix2 p q)
      = out (catRows (fun p c => u (ix2 p c))
          (mean (segSum (fun e d => x (ix2 e d)) (fun e => seg (ix1 e))) (segCnt (fun e => seg (ix1 e)))))
        (fun c k => W1 (ix2 c k)) (fun k => b1 (ix1 k)) (fun k q => W2 (ix2 k q)) (fun q => b2 (ix1 q)) p q := rfl

/-! ## The two scatters -/

/-- At the ideal instance the host's accumulating scatter is the exact sum. -/
theorem host_scatterAdd_eq {s si u : Shape} {w : Nat} (d : ScatterDims s si u) (x : FVec Ideal s .f32)
    (idx : IVec si w) (upd : FVec Ideal u .f32) :
    Host.scatterAdd (F := Ideal) d x idx upd = Ideal.hostScatterAdd d x idx upd := rfl

/-- The dimension numbers of the scatter of rows, spelled out. -/
theorem dims_rows : scatter_S1024x128_S1000000x1_S1000000x128_1_0_0_1
    = (⟨[1], [0], [0], 1, scatter_S1024x128_S1000000x1_S1000000x128_1_0_0_1_wf⟩ :
        ScatterDims (⟨2, ![1024, 128]⟩ : Shape) (⟨2, ![1000000, 1]⟩ : Shape) (⟨2, ![1000000, 128]⟩ : Shape)) := rfl

/-- The dimension numbers of the scatter into a vector, spelled out. -/
theorem dims_vec : scatter_S1024_S1000000x1_S1000000_n_0_0_1
    = (⟨[], [0], [0], 1, scatter_S1024_S1000000x1_S1000000_n_0_0_1_wf⟩ :
        ScatterDims (⟨1, ![1024]⟩ : Shape) (⟨2, ![1000000, 1]⟩ : Shape) (⟨1, ![1000000]⟩ : Shape)) := rfl

/-- The index column made from the segment words, read at `(e, 0)`, is the word of row `e` (the sums' copy). -/
theorem words_apply (x4 : (⟨S1000000, .i32⟩ : BufTy).Contents (Elt Ideal)) (e : Fin 1000000) :
    val_main_v1 (F := Ideal) x4 (ix2 e (0 : Fin 1)) = x4 (ix1 e) := by
  rw [val_main_v1_apply]
  have hi : idx_main_v1 (ix2 e (0 : Fin 1)) = ix1 e := by
    funext a
    match a with
    | ⟨0, _⟩ => rfl
  rw [hi]

/-- The same for the counts' copy of the index column. -/
theorem words5_apply (x4 : (⟨S1000000, .i32⟩ : BufTy).Contents (Elt Ideal)) (e : Fin 1000000) :
    val_main_v5 (F := Ideal) x4 (ix2 e (0 : Fin 1)) = x4 (ix1 e) := by
  rw [val_main_v5_apply]
  have hi : idx_main_v5 (ix2 e (0 : Fin 1)) = ix1 e := by
    funext a
    match a with
    | ⟨0, _⟩ => rfl
  rw [hi]

/-- Every update of the count scatter is one. -/
theorem ones_apply (e : Fin 1000000) : val_main_v3 (F := Ideal) (ix1 e) = (1 : EReal) := by
  rw [val_main_v3_apply, val_main_cst_0_apply, Ideal.ofBits_def, Ideal.ofBits_one_f32]

/-- The segment sums: the scatter of the rows of `x` into zeros, read at `(b, d)`, is the sum of `x e d` over
    the rows of segment `b`. -/
theorem sums_apply (x0 : (⟨S1000000x128, .f32⟩ : BufTy).Contents (Elt Ideal))
    (x4 : (⟨S1000000, .i32⟩ : BufTy).Contents (Elt Ideal)) (b : Fin 1024) (d : Fin 128) :
    val_main_v2 (F := Ideal) x0 x4 (ix2 b d) = segSum (fun e d => x0 (ix2 e d)) (fun e => x4 (ix1 e)) b d := by
  unfold val_main_v2
  rw [host_scatterAdd_eq, dims_rows, Cert.LibScatterSum.scatterAdd_rows,
    val_main_v0_apply, val_main_cst_apply, Ideal.ofBits_def, Ideal.ofBits_zero_f32, zero_add, segSum_def]
  simp only [words_apply]

/-- The segment counts: the scatter of ones into zeros, read at `b`, is the number of rows of segment `b`. -/
theorem counts_apply (x4 : (⟨S1000000, .i32⟩ : BufTy).Contents (Elt Ideal)) (b : Fin 1024) :
    val_main_v6 (F := Ideal) x4 (ix1 b) = segCnt (fun e => x4 (ix1 e)) b := by
  unfold val_main_v6
  rw [host_scatterAdd_eq, dims_vec, Cert.LibScatterSum.scatterAdd_vec,
    val_main_v4_apply, val_main_cst_1_apply, Ideal.ofBits_def, Ideal.ofBits_zero_f32, zero_add, segCnt_def]
  simp only [words5_apply, ones_apply]

/-! ## The mean and the joined row -/

/-- The count clamped below at one, spread over the 128 columns. -/
theorem clamp_apply (x4 : (⟨S1000000, .i32⟩ : BufTy).Contents (Elt Ideal)) (p : Fin 1024) (d : Fin 128) :
    val_main_v10 (F := Ideal) x4 (ix2 p d) = max (segCnt (fun e => x4 (ix1 e)) p) (Ideal.ofBits .f32 0x3F800000#32) := by
  have hi : idx_main_v9 (idx_main_v10 (ix2 p d)) = ix1 p := by
    funext a
    match a with
    | ⟨0, _⟩ => rfl
  rw [val_main_v10_apply, val_main_v9_apply, hi, val_main_v8_apply, Ideal.maximumf_def, counts_apply,
    val_main_v7_apply, val_main_cst_2_apply, Ideal.ofBits_def]

/-- The quotient of the sums by the clamped counts is the specification's mean. -/
theorem mean_apply (x0 : (⟨S1000000x128, .f32⟩ : BufTy).Contents (Elt Ideal))
    (x4 : (⟨S1000000, .i32⟩ : BufTy).Contents (Elt Ideal)) (p : Fin 1024) (d : Fin 128) :
    val_main_v11 (F := Ideal) x0 x4 (ix2 p d) = mean (segSum (fun e d => x0 (ix2 e d)) (fun e => x4 (ix1 e))) (segCnt (fun e => x4 (ix1 e))) p d := by
  rw [val_main_v11_apply, Ideal.hostDivf_def, sums_apply, clamp_apply, mean_def]

/-- The joined row: the globals in the first 128 columns, the means in the last 128. -/
theorem cat_apply (x0 : (⟨S1000000x128, .f32⟩ : BufTy).Contents (Elt Ideal))
    (x3 : (⟨S1024x128, .f32⟩ : BufTy).Contents (Elt Ideal))
    (x4 : (⟨S1000000, .i32⟩ : BufTy).Contents (Elt Ideal)) (p : Fin 1024) (c : Fin 256) :
    val_main_v12 (F := Ideal) x0 x3 x4 (ix2 p c) = catRows (fun p c => x3 (ix2 p c)) (mean (segSum (fun e d => x0 (ix2 e d)) (fun e => x4 (ix1 e))) (segCnt (fun e => x4 (ix1 e)))) p c := by
  unfold val_main_v12
  rw [concat_cols_apply, catRows_def]
  by_cases hc : c.val < 128
  · rw [dif_pos hc, dif_pos hc]
  · rw [dif_neg hc, dif_neg hc, mean_apply]

/-! ## The two layers -/

/-- The first layer with its rectifier, read at `(p, k)`. -/
theorem hidden_apply (x0 : (⟨S1000000x128, .f32⟩ : BufTy).Contents (Elt Ideal))
    (x3 : (⟨S1024x128, .f32⟩ : BufTy).Contents (Elt Ideal))
    (x4 : (⟨S1000000, .i32⟩ : BufTy).Contents (Elt Ideal))
    (x5 : (⟨S256x512, .f32⟩ : BufTy).Contents (Elt Ideal))
    (x6 : (⟨S512, .f32⟩ : BufTy).Contents (Elt Ideal)) (p : Fin 1024) (k : Fin 512) :
    val_main_v17 (F := Ideal) x0 x3 x4 x5 x6 (ix2 p k)
      = hidden (catRows (fun p c => x3 (ix2 p c)) (mean (segSum (fun e d => x0 (ix2 e d)) (fun e => x4 (ix1 e))) (segCnt (fun e => x4 (ix1 e))))) (fun c k => x5 (ix2 c k)) (fun k => x6 (ix1 k)) p k := by
  have hb : idx_main_v14 (idx_main_v15 (ix2 p k)) = ix1 k := by
    funext a
    match a with
    | ⟨0, _⟩ => rfl
  have hl : ∀ c : Fin 256, lidx_main_v13 (ix2 p k) c = ix2 p c := fun c => by
    funext a
    match a with
    | ⟨0, _⟩ => rfl
    | ⟨1, _⟩ => rfl
  have hr : ∀ c : Fin 256, ridx_main_v13 (ix2 p k) c = ix2 c k := fun c => by
    funext a
    match a with
    | ⟨0, _⟩ => rfl
    | ⟨1, _⟩ => rfl
  have hs : (∑ c : Fin 256, val_main_v12 (F := Ideal) x0 x3 x4 (lidx_main_v13 (ix2 p k) c) * x5 (ridx_main_v13 (ix2 p k) c))
      = ∑ c : Fin 256, (catRows (fun p c => x3 (ix2 p c)) (mean (segSum (fun e d => x0 (ix2 e d)) (fun e => x4 (ix1 e))) (segCnt (fun e => x4 (ix1 e))))) p c * x5 (ix2 c k) :=
    Finset.sum_congr rfl fun c _ => by rw [hl c, hr c, cat_apply]
  rw [val_main_v17_apply, val_main_v16_apply, val_main_v13_apply, hs, val_main_v15_apply, val_main_v14_apply, hb,
    val_main_call0_v0_apply, val_main_call0_cst_apply, Ideal.maximumf_def, Ideal.addf_def, Ideal.ofBits_def,
    hidden_def]

/-- The second layer, read at `(p, q)`. -/
theorem out_apply (x0 : (⟨S1000000x128, .f32⟩ : BufTy).Contents (Elt Ideal))
    (x3 : (⟨S1024x128, .f32⟩ : BufTy).Contents (Elt Ideal))
    (x4 : (⟨S1000000, .i32⟩ : BufTy).Contents (Elt Ideal))
    (x5 : (⟨S256x512, .f32⟩ : BufTy).Contents (Elt Ideal))
    (x6 : (⟨S512, .f32⟩ : BufTy).Contents (Elt Ideal))
    (x7 : (⟨S512x128, .f32⟩ : BufTy).Contents (Elt Ideal))
    (x8 : (⟨S128, .f32⟩ : BufTy).Contents (Elt Ideal)) (p : Fin 1024) (q : Fin 128) :
    val_main_v21 (F := Ideal) x0 x3 x4 x5 x6 x7 x8 (ix2 p q)
      = out (catRows (fun p c => x3 (ix2 p c)) (mean (segSum (fun e d => x0 (ix2 e d)) (fun e => x4 (ix1 e))) (segCnt (fun e => x4 (ix1 e))))) (fun c k => x5 (ix2 c k)) (fun k => x6 (ix1 k)) (fun k q => x7 (ix2 k q)) (fun q => x8 (ix1 q)) p q := by
  have hb : idx_main_v19 (idx_main_v20 (ix2 p q)) = ix1 q := by
    funext a
    match a with
    | ⟨0, _⟩ => rfl
  have hl : ∀ k : Fin 512, lidx_main_v18 (ix2 p q) k = ix2 p k := fun k => by
    funext a
    match a with
    | ⟨0, _⟩ => rfl
    | ⟨1, _⟩ => rfl
  have hr : ∀ k : Fin 512, ridx_main_v18 (ix2 p q) k = ix2 k q := fun k => by
    funext a
    match a with
    | ⟨0, _⟩ => rfl
    | ⟨1, _⟩ => rfl
  have hs : (∑ k : Fin 512, val_main_v17 (F := Ideal) x0 x3 x4 x5 x6 (lidx_main_v18 (ix2 p q) k) * x7 (ridx_main_v18 (ix2 p q) k))
      = ∑ k : Fin 512, hidden (catRows (fun p c => x3 (ix2 p c)) (mean (segSum (fun e d => x0 (ix2 e d)) (fun e => x4 (ix1 e))) (segCnt (fun e => x4 (ix1 e))))) (fun c k => x5 (ix2 c k)) (fun k => x6 (ix1 k)) p k * x7 (ix2 k q) :=
    Finset.sum_congr rfl fun k _ => by rw [hl k, hr k, hidden_apply]
  rw [val_main_v21_apply, val_main_v18_apply, hs, val_main_v20_apply, val_main_v19_apply, hb, Ideal.addf_def, out_def]

/-! ## The reference is G -/

/-- The reference program's result is the specification's function of the arguments. -/
theorem result_eq
    (x0 : (⟨Cert.ReferenceIdeal.S1000000x128, .f32⟩ : BufTy).Contents (Elt Ideal)) (x3 : (⟨Cert.ReferenceIdeal.S1024x128, .f32⟩ : BufTy).Contents (Elt Ideal))
    (x4 : (⟨Cert.ReferenceIdeal.S1000000, .i32⟩ : BufTy).Contents (Elt Ideal)) (x5 : (⟨Cert.ReferenceIdeal.S256x512, .f32⟩ : BufTy).Contents (Elt Ideal))
    (x6 : (⟨Cert.ReferenceIdeal.S512, .f32⟩ : BufTy).Contents (Elt Ideal)) (x7 : (⟨Cert.ReferenceIdeal.S512x128, .f32⟩ : BufTy).Contents (Elt Ideal))
    (x8 : (⟨Cert.ReferenceIdeal.S128, .f32⟩ : BufTy).Contents (Elt Ideal)) :
    Cert.ReferenceIdeal.Read.val_main_v21 (F := Ideal) x0 x3 x4 x5 x6 x7 x8 = Cert.SegMeanMlp.G x0 x4 x3 x5 x6 x7 x8 := by
  funext i
  obtain ⟨p, q, rfl⟩ : ∃ (p : Fin 1024) (q : Fin 128), i = ix2 p q := ⟨i 0, i 1, eq_ix2 i⟩
  rw [out_apply, G_apply]

end Cert.SegMeanMlp.Ref

end
-- ==== Proof.lean ====
/-
  The certificate: a segment mean over a million rows followed by a two-layer map, against its reference.

  Both programs compute, for each of 1024 segments, the mean of the feature rows whose segment word equals the
  segment's number (the count clamped below at one), join it to the segment's global row, and apply
  h = max(cat · W1 + b1, 0), out = h · W2 + b2.
  * The reference forms the sums and counts by two accumulating scatters; over the extended reals a scatter is, at
    each index, the operand's entry plus the sum of the updates that land there, and an update whose word is negative
    or not below 1024 lands nowhere.
  * The kernel streams the rows in 489 tiles of 2048, padded with rows of segment word −1, and adds to two running
    totals the product of each tile's one-hot matrix with the tile; a one-hot weight is 1 exactly when the word equals
    the segment's number, so a padding row or a row of no segment weighs 0, and 0 · x = 0 for every extended real.
    After the last tile the totals are the same sums and counts, and the last grid point applies the same two layers.
  No law used needs finiteness: only the associativity and commutativity of sums, 0 + x = x and 0 · x = 0.
  The narrowing format changes of the kernel are the identity on extended reals; the one rewrite the idealization
  made (a narrowing followed by its widening, replaced by its operand) is its rule's statement.
-/
import proofs.«400438_j2714419331676_1_alg».proof.Defs
import proofs.«400438_j2714419331676_1_alg».proof.Proof.Gen.Kernel
import proofs.«400438_j2714419331676_1_alg».proof.Proof.Gen.Kernel.Skeleton
import proofs.«400438_j2714419331676_1_alg».proof.Proof.Gen.Kernel.Launch
import proofs.«400438_j2714419331676_1_alg».proof.Proof.Gen.Kernel.Points
import proofs.«400438_j2714419331676_1_alg».proof.Proof.Gen.Kernel.Frame
import proofs.«400438_j2714419331676_1_alg».proof.Proof.Gen.KernelIdeal
import proofs.«400438_j2714419331676_1_alg».proof.Proof.Gen.KernelIdeal.Skeleton
import proofs.«400438_j2714419331676_1_alg».proof.Proof.Gen.KernelIdeal.Launch
import proofs.«400438_j2714419331676_1_alg».proof.Proof.Gen.KernelIdeal.Points
import proofs.«400438_j2714419331676_1_alg».proof.Proof.Gen.KernelIdeal.Frame
import proofs.«400438_j2714419331676_1_alg».proof.Proof.Gen.ReferenceIdeal
import proofs.«400438_j2714419331676_1_alg».proof.Proof.Gen.KernelIdeal.Value
import proofs.«400438_j2714419331676_1_alg».proof.Proof.Gen.ReferenceIdeal.Run
import proofs.«400438_j2714419331676_1_alg».proof.Proof.Gen.ReferenceIdeal.Read
import proofs.«400438_j2714419331676_1_alg».proof.Proof.Gen.Pre_finite_inputs
import proofs.«400438_j2714419331676_1_alg».proof.Proof.Accum
import proofs.«400438_j2714419331676_1_alg».proof.Proof.KernelRun
import proofs.«400438_j2714419331676_1_alg».proof.Proof.RefValue
import Idealize.ShloMosaic.Adequacy
import Idealize.ShloMosaic.Init

noncomputable section

namespace Cert.Proof

open Idealize.ShloMosaic Idealize.SL.Sem

/-- The printed kernel runs and leaves its arguments as launched. -/
theorem frame_k : Cert.frame_Kernel :=
  fun m ρ _ => Cert.Kernel.Gen.frame m ρ

/-- So does its idealization. -/
theorem frame_ki : Cert.frame_KernelIdeal :=
  fun m ρ _ => Cert.KernelIdeal.Gen.frame m ρ

/-- The reference is a straight line of array operations: it runs, and writes none of its arguments. -/
theorem frame_ri : Cert.frame_ReferenceIdeal :=
  fun m ρ _ => (θ_run Cert.ReferenceIdeal.defs _ _).mono (fun _ h c => (h c).2)
    (Cert.ReferenceIdeal.Value.run (F := Ideal) m ρ)

/-- The idealization's one rewrite: a narrowing to the short format followed by the widening back is, on extended
    reals, its operand. -/
theorem preserves : Cert.preserves_Kernel_KernelIdeal :=
  IdealRules.truncf_extf.statement Cert.KernelIdeal.S1024x2048 .f32 .bf16

/-- From memories that agree on the arguments both programs end with the specification's function of them. -/
theorem algebraic : Cert.algebraic_KernelIdeal_ReferenceIdeal := by
  intro m ρ m' ρ' _ hagree
  refine ⟨fun c => Cert.SegMeanMlp.Kernel.result m c,
    Cert.SegMeanMlp.Kernel.run_of m ρ (fun c h => Cert.SegMeanMlp.Kernel.last_eq m c h), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.SegMeanMlp.Ref.result_eq]
  obtain ⟨a0, _, _, a3, a4, a5, a6, a7, a8⟩ := hagree c
  rw [a0, a3, a4, a5, a6, a7, a8]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
